-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg13 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg13
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  main_v58

def fn_part2 {F : FTy → Type} [FloatOps F] (main_arg9 : FVec F S128 .f32) (main_arg10 : FVec F S384x128 .f32) (main_arg11 : FVec F S384x128 .f32) (main_arg12 : FVec F S384 .f32) (main_arg13 : FVec F S384 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg13 main_v48 main_v49 main_v50

def fn_part1 {F : FTy → Type} [FloatOps F] (main_arg6 : FVec F S128x256 .f32) (main_arg7 : FVec F S128 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S200000x128 .f32) (main_arg1 : FVec F S100000x128 .f32) (main_arg2 : IVec S1000000 32) (main_arg3 : IVec S1000000 32) (main_arg4 : FVec F S128x128 .f32) (main_arg5 : FVec F S128 .f32) (main_arg6 : FVec F S128x256 .f32) (main_arg7 : FVec F S128 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S256x128 : Shape := ⟨2, ![256, 128]⟩
abbrev S128x384 : Shape := ⟨2, ![128, 384]⟩
abbrev S1x128 : Shape := ⟨2, ![1, 128]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S4000x128 : Shape := ⟨2, ![4000, 128]⟩
abbrev S1x384 : Shape := ⟨2, ![1, 384]⟩
abbrev S2000x128 : Shape := ⟨2, ![2000, 128]⟩
abbrev S2000x384 : Shape := ⟨2, ![2000, 384]⟩

abbrev nBuf : Space → Nat
  | .hbm => 67
  | .vmem => 27
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x128, .f32⟩
  | .hbm, ⟨15, _⟩ => ⟨S256x128, .f32⟩
  | .hbm, ⟨16, _⟩ => ⟨S128x128, .f32⟩
  | .hbm, ⟨17, _⟩ => ⟨S128x384, .f32⟩
  | .hbm, ⟨18, _⟩ => ⟨S128x384, .f32⟩
  | .hbm, ⟨19, _⟩ => ⟨S1x128, .f32⟩
  | .hbm, ⟨20, _⟩ => ⟨S100000x128, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .f32⟩
  | .hbm, ⟨30, _⟩ => ⟨S_, .f32⟩
  | .hbm, ⟨31, _⟩ => ⟨S200000x128, .f32⟩
  | .hbm, ⟨32, _⟩ => ⟨S1000000x1, .i32⟩
  | .hbm, ⟨33, _⟩ => ⟨S200000x128, .f32⟩
  | .hbm, ⟨34, _⟩ => ⟨S_, .f32⟩
  | .hbm, ⟨35, _⟩ => ⟨S1000000, .f32⟩
  | .hbm, ⟨36, _⟩ => ⟨S_, .f32⟩
  | .hbm, ⟨37, _⟩ => ⟨S200000, .f32⟩
  | .hbm, ⟨38, _⟩ => ⟨S1000000x1, .i32⟩
  | .hbm, ⟨39, _⟩ => ⟨S200000, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000x128, .f32⟩
  | .hbm, ⟨45, _⟩ => ⟨S200000x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S1x128, .f32⟩
  | .hbm, ⟨50, _⟩ => ⟨S200000x128, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x128, .f32⟩
  | .hbm, ⟨60, _⟩ => ⟨S_, .f32⟩
  | .hbm, ⟨61, _⟩ => ⟨S100000x128, .f32⟩
  | .hbm, ⟨62, _⟩ => ⟨S1000000x1, .i32⟩
  | .hbm, ⟨63, _⟩ => ⟨S100000x128, .f32⟩
  | .hbm, ⟨64, _⟩ => ⟨S1x384, .f32⟩
  | .hbm, ⟨65, _⟩ => ⟨S1x384, .f32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x384, .f32⟩
  | .local _ .vmem, ⟨22, _⟩ => ⟨S128x384, .f32⟩
  | .local _ .vmem, ⟨23, _⟩ => ⟨S1x384, .f32⟩
  | .local _ .vmem, ⟨24, _⟩ => ⟨S1x384, .f32⟩
  | .local _ .vmem, ⟨25, _⟩ => ⟨S2000x128, .f32⟩
  | .local _ .vmem, ⟨26, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S128x128_S128x128_1_0 : S128x128.Transposes [1, 0] S128x128
  transposes_S128x256_S256x128_1_0 : S128x256.Transposes [1, 0] S256x128
  transposes_S384x128_S128x384_1_0 : S384x128.Transposes [1, 0] S128x384
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S100000x128 : S_.BroadcastsInDim S100000x128 (![] : Fin 0 → Fin S100000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S4000x128_S128x128_S4000x128_1_0_0_1_n_n_wf : DotDims.WF S4000x128 S128x128 S4000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S200000x128.size a
  hwx1_7 : ∀ i : grid1.Coords, EltTy.bits .f32 = 32 ∨ (Rect.block (s := S200000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 114
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .f32⟩
  | .hbm, ⟨29, _⟩ => ⟨S200000x128, .f32⟩
  | .hbm, ⟨30, _⟩ => ⟨S1000000x1, .i32⟩
  | .hbm, ⟨31, _⟩ => ⟨S200000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S200000, .f32⟩
  | .hbm, ⟨36, _⟩ => ⟨S1000000x1, .i32⟩
  | .hbm, ⟨37, _⟩ => ⟨S200000, .f32⟩
  | .hbm, ⟨38, _⟩ => ⟨S_, .f32⟩
  | .hbm, ⟨39, _⟩ => ⟨S200000, .f32⟩
  | .hbm, ⟨40, _⟩ => ⟨S200000, .f32⟩
  | .hbm, ⟨41, _⟩ => ⟨S200000x1, .f32⟩
  | .hbm, ⟨42, _⟩ => ⟨S200000x128, .f32⟩
  | .hbm, ⟨43, _⟩ => ⟨S200000x128, .f32⟩
  | .hbm, ⟨44, _⟩ => ⟨S200000x256, .f32⟩
  | .hbm, ⟨45, _⟩ => ⟨S256x128, .f32⟩
  | .hbm, ⟨46, _⟩ => ⟨S200000x128, .f32⟩
  | .hbm, ⟨47, _⟩ => ⟨S1x128, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S128x128, .f32⟩
  | .hbm, ⟨54, _⟩ => ⟨S200000x128, .f32⟩
  | .hbm, ⟨55, _⟩ => ⟨S1x128, .f32⟩
  | .hbm, ⟨56, _⟩ => ⟨S200000x128, .f32⟩
  | .hbm, ⟨57, _⟩ => ⟨S200000x128, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x128, .f32⟩
  | .hbm, ⟨67, _⟩ => ⟨S_, .f32⟩
  | .hbm, ⟨68, _⟩ => ⟨S100000x128, .f32⟩
  | .hbm, ⟨69, _⟩ => ⟨S1000000x1, .i32⟩
  | .hbm, ⟨70, _⟩ => ⟨S100000x128, .f32⟩
  | .hbm, ⟨71, _⟩ => ⟨S128x384, .f32⟩
  | .hbm, ⟨72, _⟩ => ⟨S100000x384, .f32⟩
  | .hbm, ⟨73, _⟩ => ⟨S1x384, .f32⟩
  | .hbm, ⟨74, _⟩ => ⟨S100000x384, .f32⟩
  | .hbm, ⟨75, _⟩ => ⟨S100000x384, .f32⟩
  | .hbm, ⟨76, _⟩ => ⟨S128x384, .f32⟩
  | .hbm, ⟨77, _⟩ => ⟨S100000x384, .f32⟩
  | .hbm, ⟨78, _⟩ => ⟨S1x384, .f32⟩
  | .hbm, ⟨79, _⟩ => ⟨S100000x384, .f32⟩
  | .hbm, ⟨80, _⟩ => ⟨S100000x384, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S100000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_v73 : Ref sig .tc := ⟨.hbm, 101, rfl⟩
abbrev main_cst_10 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S1x128_S200000x128_0_1 : S1x128.BroadcastsInDim S200000x128 (![0, 1] : Fin 2 → Fin S200000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x384_S100000x384_1_0_0_1_n_n_wf : DotDims.WF S100000x128 S128x384 S100000x384 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.Spec.lean ====
/-
  The mathematics of the three dense stages, one ROW at a time, over the extended reals.

  Every stage of this network acts on the rows of its activation arrays independently: a row of the result depends on
  the same row of each activation operand and on the (whole) weight and bias arrays. So each stage is stated here as a
  function of one row (a function `Fin 128 → EReal`), of weights indexed `[input, output]` and of a bias, giving the
  result row's entry `j`. Both the tiled kernels (whatever the tile height) and the whole-array reference are instances.

  * `projRow`  : the affine map  x ↦ x · W + b.
  * `mlpRow`   : the two-layer perceptron on a row split in two halves `e`, `c`:
                   relu (e · We + c · Wc + b1) · W2 + b2.  The first layer over the concatenated row `[e, c]` against
                   the stacked weights `[We; Wc]` is the same number: a sum over 256 terms split at 128 (`sum_split`),
                   which needs only that addition of extended reals is commutative and associative.
  * `gruRow`   : the gated recurrent unit's update of the state row `h` by the input row `x`, with the three gates'
                   pre-activations read from columns j, 128 + j and 256 + j of the two affine maps `gi`, `gh`:
                   r = σ(gi_r + gh_r), z = σ(gi_z + gh_z), n = tanh (gi_n + r · gh_n), result (1 − z) · n + z · h.
-/
import Idealize.ShloMosaic.PureOps.Ideal
import Idealize.ShloMosaic.Lib.ValueIdx

noncomputable section

namespace Cert.Spec

open Idealize.ShloMosaic

/-- Column `j` of the gate block `g` (0, 1, 2) among the 384 = 3 · 128 gate columns. -/
abbrev gateCol (g : Fin 3) (j : Fin 128) : Fin 384 := ⟨g.val * 128 + j.val, by have := g.isLt; have := j.isLt; omega⟩

/-- x · W + b at column `j`. -/
def projRow (x : Fin 128 → EReal) (W : Fin 128 → Fin 128 → EReal) (b : Fin 128 → EReal) (j : Fin 128) : EReal :=
  (∑ k : Fin 128, x k * W k j) + b j

/-- The hidden layer's entry `k`: relu (e · We + c · Wc + b1), the zero being the f32 word of +0. -/
def hiddenRow (e c : Fin 128 → EReal) (We Wc : Fin 128 → Fin 128 → EReal) (b1 : Fin 128 → EReal) (k : Fin 128) : EReal :=
  max (((∑ q : Fin 128, e q * We q k) + (∑ q : Fin 128, c q * Wc q k)) + b1 k) (Ideal.ofBits .f32 0x00000000#32)

/-- relu (e · We + c · Wc + b1) · W2 + b2 at column `j`. -/
def mlpRow (e c : Fin 128 → EReal) (We Wc : Fin 128 → Fin 128 → EReal) (b1 : Fin 128 → EReal)
    (W2 : Fin 128 → Fin 128 → EReal) (b2 : Fin 128 → EReal) (j : Fin 128) : EReal :=
  (∑ k : Fin 128, hiddenRow e c We Wc b1 k * W2 k j) + b2 j

/-- One of the GRU's two affine maps, x · W + b, at gate column `col`. -/
def gateRow (x : Fin 128 → EReal) (W : Fin 128 → Fin 384 → EReal) (b : Fin 384 → EReal) (col : Fin 384) : EReal :=
  (∑ q : Fin 128, x q * W q col) + b col

/-- The GRU cell's new state at column `j`; the one is the f32 word of 1. -/
def gruRow (x h : Fin 128 → EReal) (Wi Wh : Fin 128 → Fin 384 → EReal) (bi bh : Fin 384 → EReal) (j : Fin 128) : EReal :=
  let r := Ideal.logistic (gateRow x Wi bi (gateCol 0 j) + gateRow h Wh bh (gateCol 0 j))
  let z := Ideal.logistic (gateRow x Wi bi (gateCol 1 j) + gateRow h Wh bh (gateCol 1 j))
  let n := Ideal.tanh (gateRow x Wi bi (gateCol 2 j) + r * gateRow h Wh bh (gateCol 2 j))
  (Ideal.ofBits .f32 0x3F800000#32 - z) * n + z * h j

/-- A sum over 256 = 128 + 128 indices is the sum over the first 128 plus the sum over the last 128. -/
theorem sum_split (f : Fin 256 → EReal) :
    ∑ k : Fin 256, f k = (∑ q : Fin 128, f ⟨q.val, by have := q.isLt; omega⟩) + ∑ q : Fin 128, f ⟨128 + q.val, by have := q.isLt; omega⟩ := by
  have h := Fin.sum_univ_add (M := EReal) (a := 128) (b := 128) f
  rw [h]
  rfl

end Cert.Spec

end
-- ==== Proof.ProjPayload.lean ====
/-
  The projection kernel's stored block, entry by entry: row r of the activation block times the weight block plus
  the bias row, i.e. `projRow` of that row.

  The body rounds both matmul operands to bf16 (the identity on the extended reals), multiplies into a zero
  accumulator (a plain sum over the 128 contracted coordinates), and adds the [1,128] bias broadcast down the rows.
-/
import proofs.«101154_j90022514524502_1_alg».proof.Proof.Gen.KernelIdeal.Skeleton
import proofs.«101154_j90022514524502_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.TcCoe Cert.KernelIdeal Cert.KernelIdeal.Gen Cert.Spec
open Idealize.ShloMosaic.ValueIdx

/-! ## The matmul's operand indices: output (r, j), contraction coordinate q ↦ left (r, q), right (q, j) -/

theorem lhs_proj_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_proj_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_proj_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_proj_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into a zero accumulator, at (r, j): the sum over q of left (r, q) · right (q, j). -/
theorem matmul_proj_apply (l : FVec Ideal S5000x128 .bf16) (w : FVec Ideal S128x128 .bf16) (r : Fin 5000) (j : Fin 128) :
    matmul (F := Ideal) dot_S5000x128_S128x128_S5000x128_1_0_0_1_n_n none l w (constant S5000x128 .f32 0x00000000#32) (ix2 r j)
      = ∑ q : Fin 128, l (ix2 r q) * w (ix2 q j) := by
  refine (Ideal.matmul_constant_zero_apply dot_S5000x128_S128x128_S5000x128_1_0_0_1_n_n none l w (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_proj_0 _ _).trans hk
    | ⟨1, _⟩ => exact rhs_proj_1 _ _)
  rw [el, er]

/-- The bias row [1,128] broadcast to [5000,128], at (r, j): the row's entry j. -/
theorem bias_proj_apply (b : FVec Ideal S1x128 .f32) (r : Fin 5000) (j : Fin 128) :
    broadcastTo S5000x128 b broadcasts_S1x128_S5000x128 (ix2 r j) = b (ix2 0 j) :=
  broadcastTo_apply b broadcasts_S1x128_S5000x128 (ix2 r j) (ix2 0 j) (fun a => match a with
    | ⟨0, _⟩ => by show (0 : Nat) = if (1 : Nat) = 1 then 0 else _; rw [if_pos rfl]
    | ⟨1, _⟩ => by show j.val = if (128 : Nat) = 1 then 0 else j.val; rw [if_neg (by decide)])

/-- Entry (r, j) of the block the projection kernel stores. -/
theorem proj_pay (x0 : Vec Ideal S5000x128 .f32) (x1 : Vec Ideal S128x128 .f32) (x2 : Vec Ideal S1x128 .f32)
    (r : Fin 5000) (j : Fin 128) :
    k0_pay1 (F := Ideal) x0 x1 x2 (ix2 r j)
      = projRow (fun k => x0 (ix2 r k)) (fun k j => x1 (ix2 k j)) (fun j => x2 (ix2 0 j)) j := by
  unfold k0_pay1 projRow
  dsimp only
  rw [addf_apply, matmul_proj_apply, bias_proj_apply, shapeCast_self, shapeCast_self]
  rfl

end Cert.KernelIdeal.Pay

end
-- ==== Proof.RegionProj.lean ====
/-
  The projection region's result ARRAY, whatever the buffers hold when the region is entered.

  The grid has 20 points; point t reads rows 5000·t … 5000·t + 4999 of the activation array (all 128 columns), the
  whole weight and bias arrays, and writes back rows 5000·t … of the result. A stored entry depends on its own row of
  the activations only (`proj_pay`), so block t of the result is block t of ONE whole-array function `projG`, and
  the 20 blocks tile the 100000 rows: the array ends holding `projG`.
-/
import proofs.«101154_j90022514524502_1_alg».proof.Proof.Gen.KernelIdeal.Frame
import proofs.«101154_j90022514524502_1_alg».proof.Proof.ProjPayload
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Pay Cert.Spec
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The whole result as a function of the three arrays the region reads: row i₀ of the activations through `projRow`. -/
abbrev projG (X : S100000x128.Idx → EReal) (W : S128x128.Idx → EReal) (b : S1x128.Idx → EReal) : S100000x128.Idx → EReal :=
  fun i => projRow (fun k => X (ix2 (i 0) k)) (fun k j => W (ix2 k j)) (fun j => b (ix2 0 j)) (i 1)

/-- The printed index maps over the grid: the activation and result windows move down one block per point, the
    weight and bias windows stay at block (0, 0). -/
theorem idx_proj : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activation block at point t is rows 5000·t … of the array. -/
theorem iblk0_0_apply (c : Dev nD) (t : Fin cfg0.N) (r : Fin 5000) (k : Fin 128) (R : Fin 100000) (hR : R.val = t.val * 5000 + r.val) :
    (iblk0 V c 0 t : Vec Ideal S5000x128 .f32) (ix2 r k) = (V c main_arg1 : S100000x128.Idx → EReal) (ix2 R k) := by
  obtain ⟨e0, e1, -⟩ := idx_proj t
  unfold iblk0
  rw [View.read_apply]
  show V c main_arg1 _ = V c main_arg1 _
  refine congrArg (V c main_arg1) ?_
  funext a
  apply Fin.ext
  match a with
  | ⟨0, _⟩ => show win0_0.index t 0 * 5000 + 1 * r.val = R.val; rw [e0, hR]; omega
  | ⟨1, _⟩ => show win0_0.index t 1 * 128 + 1 * k.val = k.val; rw [e1]; omega

/-- The weight block at any point is the whole weight array. -/
theorem iblk0_1_apply (c : Dev nD) (t : Fin cfg0.N) (k j : Fin 128) :
    (iblk0 V c 1 t : Vec Ideal S128x128 .f32) (ix2 k j) = (V c main_v0 : S128x128.Idx → EReal) (ix2 k j) := by
  obtain ⟨-, -, e2, e3, -⟩ := idx_proj t
  unfold iblk0
  rw [View.read_apply]
  show V c main_v0 _ = V c main_v0 _
  refine congrArg (V c main_v0) ?_
  funext a
  apply Fin.ext
  match a with
  | ⟨0, _⟩ => show win0_1.index t 0 * 128 + 1 * k.val = k.val; rw [e2]; omega
  | ⟨1, _⟩ => show win0_1.index t 1 * 128 + 1 * j.val = j.val; rw [e3]; omega

/-- The bias block at any point is the whole bias row. -/
theorem iblk0_2_apply (c : Dev nD) (t : Fin cfg0.N) (j : Fin 128) :
    (iblk0 V c 2 t : Vec Ideal S1x128 .f32) (ix2 0 j) = (V c main_v5 : S1x128.Idx → EReal) (ix2 0 j) := by
  obtain ⟨-, -, -, -, e4, e5, -⟩ := idx_proj t
  unfold iblk0
  rw [View.read_apply]
  show V c main_v5 _ = V c main_v5 _
  refine congrArg (V c main_v5) ?_
  funext a
  apply Fin.ext
  match a with
  | ⟨0, _⟩ => show win0_2.index t 0 * 1 + 1 * 0 = 0; rw [e4]
  | ⟨1, _⟩ => show win0_2.index t 1 * 128 + 1 * j.val = j.val; rw [e5]; omega

/-- WHAT POINT t WRITES BACK is block t of `projG` of the arrays as the region finds them. -/
theorem flushed_proj (c : Dev nD) (t : Fin cfg0.N) :
    (dat0 V c).flushed 3 t
      = ((cfg0.win 3).blk t).view.read (Elt Ideal) (projG (V c main_arg1) (V c main_v0) (V c main_v5)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  funext y
  obtain ⟨r, j, rfl⟩ : ∃ (r : Fin 5000) (j : Fin 128), y = ix2 r j := ⟨y 0, y 1, eq_ix2 y⟩
  obtain ⟨-, -, -, -, -, -, e6, e7⟩ := idx_proj t
  have ht : t.val < 20 := t.isLt
  have hr : r.val < 5000 := r.isLt
  let R : Fin 100000 := ⟨t.val * 5000 + r.val, by omega⟩
  have he : ((cfg0.win 3).blk t).view.emb (ix2 r j) = (ix2 R j : S100000x128.Idx) := by
    funext a
    apply Fin.ext
    match a with
    | ⟨0, _⟩ => show win0_3.index t 0 * 5000 + 1 * r.val = t.val * 5000 + r.val; rw [e6]; omega
    | ⟨1, _⟩ => show win0_3.index t 1 * 128 + 1 * j.val = j.val; rw [e7]; omega
  show k0_pay1 (F := Ideal) (iblk0 V c 0 t) (iblk0 V c 1 t) (iblk0 V c 2 t) (ix2 r j)
      = projG (V c main_arg1) (V c main_v0) (V c main_v5) (((cfg0.win 3).blk t).view.emb (ix2 r j))
  rw [he]
  refine (proj_pay (iblk0 V c 0 t) (iblk0 V c 1 t) (iblk0 V c 2 t) r j).trans ?_
  show projRow _ _ _ j = projRow (fun k => (V c main_arg1 : S100000x128.Idx → EReal) (ix2 R k)) (fun k j => (V c main_v0 : S128x128.Idx → EReal) (ix2 k j)) (fun j => (V c main_v5 : S1x128.Idx → EReal) (ix2 0 j)) j
  have h0 : (fun k => (iblk0 V c 0 t : Vec Ideal S5000x128 .f32) (ix2 r k)) = fun k => (V c main_arg1 : S100000x128.Idx → EReal) (ix2 R k) :=
    funext fun k => iblk0_0_apply V c t r k R rfl
  have h1 : (fun k j => (iblk0 V c 1 t : Vec Ideal S128x128 .f32) (ix2 k j)) = fun k j => (V c main_v0 : S128x128.Idx → EReal) (ix2 k j) :=
    funext fun k => funext fun j => iblk0_1_apply V c t k j
  have h2 : (fun j => (iblk0 V c 2 t : Vec Ideal S1x128 .f32) (ix2 0 j)) = fun j => (V c main_v5 : S1x128.Idx → EReal) (ix2 0 j) :=
    funext fun j => iblk0_2_apply V c t j
  rw [h0, h1, h2]

/-- An index of the result array is in point t's block iff each coordinate is in the block's range on its axis. -/
theorem mem_blk_proj (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v6).slice (win0_3.rect t)).set ↔ _
  rw [View.set_slice_whole, Rect.mem_set_unit]
  exact Iff.rfl

/-- Every index of the result array is in some point's block: row i₀ is in block i₀ / 5000. -/
theorem cover_proj (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e6, e7⟩ := idx_proj t
  have ht : t.val = (i 0).val / 5000 := rfl
  refine ⟨t, flush0_3 t, ?_⟩
  rw [mem_blk_proj]
  intro a
  match a with
  | ⟨0, _⟩ => show win0_3.index t 0 * 5000 ≤ (i 0).val ∧ (i 0).val < win0_3.index t 0 * 5000 + 5000; rw [e6, ht]; omega
  | ⟨1, _⟩ => show win0_3.index t 1 * 128 ≤ (i 1).val ∧ (i 1).val < win0_3.index t 1 * 128 + 128; rw [e7]; omega

/-- THE RESULT ARRAY after the region: `projG` of the arrays the region was entered with. -/
theorem proj_array (c : Dev nD) :
    (dat0 V c).arrAt 3 cfg0.N = projG (V c main_arg1) (V c main_v0) (V c main_v5) :=
  (dat0 V c).arrAt_eq_of_cover 3 _ (fun t _ => flushed_proj V c t) cover_proj

end Cert.KernelIdeal.Regions

end
-- ==== Proof.MlpPayload.lean ====
import proofs.«101154_j90022514524502_1_alg».proof.Proof.Gen.KernelIdeal.Skeleton
import proofs.«101154_j90022514524502_1_alg».proof.Proof.Spec
import Idealize.ShloMosaic.Lib.ValueIdx
import Idealize.ShloMosaic.Lib.Pipeline.Value
import Idealize.ShloMosaic.PureOps.Ideal.Laws

/-
  The perceptron stage's stored block, entry by entry.

  The block is computed from two activation blocks e, c (4000 rows of 128), three weight matrices We, Wc, W2
  (128 by 128) and two bias rows b1, b2 (1 by 128) as
      relu (e · We + c · Wc + b1) · W2 + b2,
  each product being a contraction over the shared axis of length 128 added to a zero accumulator, the bias rows
  being repeated down the 4000 rows, and relu being the maximum with +0.  Over the extended reals the roundings to
  the narrower format are the identity, so entry (r, j) of the block depends on row r of e and c only and is the
  row function `mlpRow` of the specification.
-/

noncomputable section
namespace Cert.KernelIdeal.Pay
open Idealize.ShloMosaic Idealize.ShloMosaic.TcCoe Cert.KernelIdeal Cert.KernelIdeal.Gen Cert.Spec
open Idealize.ShloMosaic.ValueIdx

/-! ## The contraction's index maps, axis by axis -/

/-- The left operand's row coordinate is the result's row. -/
theorem lhs_mlp_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contracted index. -/
theorem lhs_mlp_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contracted index. -/
theorem rhs_mlp_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the result's column. -/
theorem rhs_mlp_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## One product into a zero accumulator, at an entry -/

/-- Entry (r, k) of a [4000,128] by [128,128] product added to zero is the sum over the shared axis of row r of the
    left operand against column k of the right. -/
theorem mm_apply (a : FVec Ideal S4000x128 .bf16) (b : FVec Ideal S128x128 .bf16) (r : Fin 4000) (k : Fin 128) :
    matmul (F := Ideal) dot_S4000x128_S128x128_S4000x128_1_0_0_1_n_n none a b (constant (F := Ideal) S4000x128 .f32 0x00000000#32) (ix2 r k)
      = ∑ q : Fin 128, a (ix2 r q) * b (ix2 q k) := by
  show FloatOps.matmul dot_S4000x128_S128x128_S4000x128_1_0_0_1_n_n none a b (constant (F := Ideal) S4000x128 .f32 0x00000000#32) (ix2 r k) = _
  rw [Ideal.matmul_constant_zero_apply, ← Equiv.sum_comp (ValueIdx.contrEquiv1 dot_S4000x128_S128x128_S4000x128_1_0_0_1_n_n 128 rfl rfl).symm]
  refine Finset.sum_congr rfl fun q _ => ?_
  have hq := ValueIdx.contrEquiv1_symm_val dot_S4000x128_S128x128_S4000x128_1_0_0_1_n_n 128 rfl rfl q
  have el : dot_S4000x128_S128x128_S4000x128_1_0_0_1_n_n.lhsIdx (ix2 r k) ((ValueIdx.contrEquiv1 dot_S4000x128_S128x128_S4000x128_1_0_0_1_n_n 128 rfl rfl).symm q) = ix2 r q := funext fun a => Fin.ext (by
    match a with
    | ⟨0, _⟩ => exact lhs_mlp_0 _ _
    | ⟨1, _⟩ => exact (lhs_mlp_1 _ _).trans hq)
  have er : dot_S4000x128_S128x128_S4000x128_1_0_0_1_n_n.rhsIdx (ix2 r k) ((ValueIdx.contrEquiv1 dot_S4000x128_S128x128_S4000x128_1_0_0_1_n_n 128 rfl rfl).symm q) = ix2 q k := funext fun a => Fin.ext (by
    match a with
    | ⟨0, _⟩ => exact (rhs_mlp_0 _ _).trans hq
    | ⟨1, _⟩ => exact rhs_mlp_1 _ _)
  rw [el, er]

/-! ## A bias row repeated down the rows, at an entry -/

/-- Entry (r, k) of a [1,128] row repeated to [4000,128] is the row's entry k. -/
theorem bias_apply (b : FVec Ideal S1x128 .f32) (r : Fin 4000) (k : Fin 128) :
    broadcastTo S4000x128 b broadcasts_S1x128_S4000x128 (ix2 r k) = b (ix2 0 k) :=
  broadcastTo_apply b broadcasts_S1x128_S4000x128 (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])

/-! ## The stored block -/

/-- Entry (r, j) of the block the perceptron stage stores is the specification's row function of row r of the two
    activation blocks, the three weight matrices and the two bias rows. -/
theorem mlp_pay (x0 x1 : Vec Ideal S4000x128 .f32) (x2 x3 : Vec Ideal S128x128 .f32) (x4 : Vec Ideal S1x128 .f32)
    (x5 : Vec Ideal S128x128 .f32) (x6 : Vec Ideal S1x128 .f32) (r : Fin 4000) (j : Fin 128) :
    k1_pay1 (F := Ideal) x0 x1 x2 x3 x4 x5 x6 (ix2 r j)
      = mlpRow (fun q => x0 (ix2 r q)) (fun q => x1 (ix2 r q)) (fun q k => x2 (ix2 q k)) (fun q k => x3 (ix2 q k))
          (fun k => x4 (ix2 0 k)) (fun k j => x5 (ix2 k j)) (fun j => x6 (ix2 0 j)) j := by
  unfold k1_pay1 mlpRow hiddenRow
  -- every cast of a block to its own shape is the block itself
  simp only [shapeCast_self]
  -- the outer layer: (hidden · W2)(r, j) + b2 j, the product being the sum over the hidden index k
  rw [addf_apply, mm_apply, bias_apply]
  refine congrArg (· + x6 (ix2 0 j)) (Finset.sum_congr rfl fun k _ => ?_)
  -- the hidden entry (r, k): the maximum of (e · We)(r, k) + (c · Wc)(r, k) + b1 k and +0; the roundings to the
  -- narrower format are the identity over the extended reals
  rw [truncf_apply, truncf_apply, maximumf_apply, addf_apply, addf_apply, mm_apply, mm_apply, bias_apply, broadcast_apply]
  rfl

end Cert.KernelIdeal.Pay
end
-- ==== Proof.RegionMlp.lean ====
/-
  The perceptron region's result ARRAY, whatever the buffers hold when the region is entered.

  The grid has 50 points; point t reads rows 4000·t … 4000·t + 3999 of the two activation arrays (the event features and
  the scatter-mean context), the whole of the three weight arrays and two bias rows, and writes back rows 4000·t … of
  the result. A stored entry depends on its own row of the two activation blocks only (`mlp_pay`), so block t of the
  result is block t of ONE whole-array function `mlpG`, and the 50 blocks tile the 200000 rows.
-/
import proofs.«101154_j90022514524502_1_alg».proof.Proof.Gen.KernelIdeal.Frame
import proofs.«101154_j90022514524502_1_alg».proof.Proof.MlpPayload
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Pay Cert.Spec
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The whole result as a function of the seven arrays the region reads: row i₀ of the two activation arrays through `mlpRow`. -/
abbrev mlpG (E C : S200000x128.Idx → EReal) (We Wc : S128x128.Idx → EReal) (b1 : S1x128.Idx → EReal)
    (W2 : S128x128.Idx → EReal) (b2 : S1x128.Idx → EReal) : S200000x128.Idx → EReal :=
  fun i => mlpRow (fun q => E (ix2 (i 0) q)) (fun q => C (ix2 (i 0) q)) (fun q k => We (ix2 q k)) (fun q k => Wc (ix2 q k))
    (fun k => b1 (ix2 0 k)) (fun k j => W2 (ix2 k j)) (fun j => b2 (ix2 0 j)) (i 1)

/-- The printed index maps over the grid: the two activation windows and the result window move down one block per
    point, the weight and bias windows stay at block (0, 0). -/
theorem idx_mlp : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The event-feature block at point t is rows 4000·t … of the array. -/
theorem iblk1_0_apply (c : Dev nD) (t : Fin cfg1.N) (r : Fin 4000) (k : Fin 128) (R : Fin 200000) (hR : R.val = t.val * 4000 + r.val) :
    (iblk1 V c 0 t : Vec Ideal S4000x128 .f32) (ix2 r k) = (V c main_arg0 : S200000x128.Idx → EReal) (ix2 R k) := by
  obtain ⟨e0, e1, -⟩ := idx_mlp t
  unfold iblk1
  rw [View.read_apply]
  show V c main_arg0 _ = V c main_arg0 _
  refine congrArg (V c main_arg0) ?_
  funext a
  apply Fin.ext
  match a with
  | ⟨0, _⟩ => show win1_0.index t 0 * 4000 + 1 * r.val = R.val; rw [e0, hR]; omega
  | ⟨1, _⟩ => show win1_0.index t 1 * 128 + 1 * k.val = k.val; rw [e1]; omega

/-- The context block at point t is rows 4000·t … of the array. -/
theorem iblk1_1_apply (c : Dev nD) (t : Fin cfg1.N) (r : Fin 4000) (k : Fin 128) (R : Fin 200000) (hR : R.val = t.val * 4000 + r.val) :
    (iblk1 V c 1 t : Vec Ideal S4000x128 .f32) (ix2 r k) = (V c main_v25 : S200000x128.Idx → EReal) (ix2 R k) := by
  obtain ⟨-, -, e0, e1, -⟩ := idx_mlp t
  unfold iblk1
  rw [View.read_apply]
  show V c main_v25 _ = V c main_v25 _
  refine congrArg (V c main_v25) ?_
  funext a
  apply Fin.ext
  match a with
  | ⟨0, _⟩ => show win1_1.index t 0 * 4000 + 1 * r.val = R.val; rw [e0, hR]; omega
  | ⟨1, _⟩ => show win1_1.index t 1 * 128 + 1 * k.val = k.val; rw [e1]; omega

/-- The first-layer weight block for the event half is the whole array. -/
theorem iblk1_2_apply (c : Dev nD) (t : Fin cfg1.N) (k j : Fin 128) :
    (iblk1 V c 2 t : Vec Ideal S128x128 .f32) (ix2 k j) = (V c main_v26 : S128x128.Idx → EReal) (ix2 k j) := by
  obtain ⟨-, -, -, -, e0, e1, -⟩ := idx_mlp t
  unfold iblk1
  rw [View.read_apply]
  show V c main_v26 _ = V c main_v26 _
  refine congrArg (V c main_v26) ?_
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

/-- The first-layer weight block for the context half is the whole array. -/
theorem iblk1_3_apply (c : Dev nD) (t : Fin cfg1.N) (k j : Fin 128) :
    (iblk1 V c 3 t : Vec Ideal S128x128 .f32) (ix2 k j) = (V c main_v27 : S128x128.Idx → EReal) (ix2 k j) := by
  obtain ⟨-, -, -, -, -, -, e0, e1, -⟩ := idx_mlp t
  unfold iblk1
  rw [View.read_apply]
  show V c main_v27 _ = V c main_v27 _
  refine congrArg (V c main_v27) ?_
  funext a
  apply Fin.ext
  match a with
  | ⟨0, _⟩ => show win1_3.index t 0 * 128 + 1 * k.val = k.val; rw [e0]; omega
  | ⟨1, _⟩ => show win1_3.index t 1 * 128 + 1 * j.val = j.val; rw [e1]; omega

/-- The first-layer bias block is the whole bias row. -/
theorem iblk1_4_apply (c : Dev nD) (t : Fin cfg1.N) (j : Fin 128) :
    (iblk1 V c 4 t : Vec Ideal S1x128 .f32) (ix2 0 j) = (V c main_v28 : S1x128.Idx → EReal) (ix2 0 j) := by
  obtain ⟨-, -, -, -, -, -, -, -, e0, e1, -⟩ := idx_mlp t
  unfold iblk1
  rw [View.read_apply]
  show V c main_v28 _ = V c main_v28 _
  refine congrArg (V c main_v28) ?_
  funext a
  apply Fin.ext
  match a with
  | ⟨0, _⟩ => show win1_4.index t 0 * 1 + 1 * 0 = 0; rw [e0]
  | ⟨1, _⟩ => show win1_4.index t 1 * 128 + 1 * j.val = j.val; rw [e1]; omega

/-- The second-layer weight block is the whole array. -/
theorem iblk1_5_apply (c : Dev nD) (t : Fin cfg1.N) (k j : Fin 128) :
    (iblk1 V c 5 t : Vec Ideal S128x128 .f32) (ix2 k j) = (V c main_v2 : S128x128.Idx → EReal) (ix2 k j) := by
  obtain ⟨-, -, -, -, -, -, -, -, -, -, e0, e1, -⟩ := idx_mlp t
  unfold iblk1
  rw [View.read_apply]
  show V c main_v2 _ = V c main_v2 _
  refine congrArg (V c main_v2) ?_
  funext a
  apply Fin.ext
  match a with
  | ⟨0, _⟩ => show win1_5.index t 0 * 128 + 1 * k.val = k.val; rw [e0]; omega
  | ⟨1, _⟩ => show win1_5.index t 1 * 128 + 1 * j.val = j.val; rw [e1]; omega

/-- The second-layer bias block is the whole bias row. -/
theorem iblk1_6_apply (c : Dev nD) (t : Fin cfg1.N) (j : Fin 128) :
    (iblk1 V c 6 t : Vec Ideal S1x128 .f32) (ix2 0 j) = (V c main_v29 : S1x128.Idx → EReal) (ix2 0 j) := by
  obtain ⟨-, -, -, -, -, -, -, -, -, -, -, -, e0, e1, -⟩ := idx_mlp t
  unfold iblk1
  rw [View.read_apply]
  show V c main_v29 _ = V c main_v29 _
  refine congrArg (V c main_v29) ?_
  funext a
  apply Fin.ext
  match a with
  | ⟨0, _⟩ => show win1_6.index t 0 * 1 + 1 * 0 = 0; rw [e0]
  | ⟨1, _⟩ => show win1_6.index t 1 * 128 + 1 * j.val = j.val; rw [e1]; omega

/-- WHAT POINT t WRITES BACK is block t of `mlpG` of the arrays as the region finds them. -/
theorem flushed_mlp (c : Dev nD) (t : Fin cfg1.N) :
    (dat1 V c).flushed 7 t
      = ((cfg1.win 7).blk t).view.read (Elt Ideal)
          (mlpG (V c main_arg0) (V c main_v25) (V c main_v26) (V c main_v27) (V c main_v28) (V c main_v2) (V c main_v29)) := by
  show (cfg1.win 7).cut (grid1.coords t) ((dat1 V c).after 7 t) = _
  rw [after1_7]
  unfold out1_7
  rw [View.canon_unit_zero hz1]
  simp only [View.ld_unit_zero (S := S4000x128) hz1, View.ld_unit_zero (S := S128x128) hz1, View.ld_unit_zero (S := S1x128) hz1]
  funext y
  obtain ⟨r, j, rfl⟩ : ∃ (r : Fin 4000) (j : Fin 128), y = ix2 r j := ⟨y 0, y 1, eq_ix2 y⟩
  obtain ⟨-, -, -, -, -, -, -, -, -, -, -, -, -, -, e6, e7⟩ := idx_mlp t
  have hN : cfg1.N = 50 := N_1
  have ht : t.val < 50 := hN ▸ t.isLt
  have hr : r.val < 4000 := r.isLt
  let R : Fin 200000 := ⟨t.val * 4000 + r.val, by omega⟩
  have he : ((cfg1.win 7).blk t).view.emb (ix2 r j) = (ix2 R j : S200000x128.Idx) := by
    funext a
    apply Fin.ext
    match a with
    | ⟨0, _⟩ => show win1_7.index t 0 * 4000 + 1 * r.val = t.val * 4000 + r.val; rw [e6]; omega
    | ⟨1, _⟩ => show win1_7.index t 1 * 128 + 1 * j.val = j.val; rw [e7]; omega
  show k1_pay1 (F := Ideal) (iblk1 V c 0 t) (iblk1 V c 1 t) (iblk1 V c 2 t) (iblk1 V c 3 t) (iblk1 V c 4 t) (iblk1 V c 5 t) (iblk1 V c 6 t) (ix2 r j)
      = mlpG (V c main_arg0) (V c main_v25) (V c main_v26) (V c main_v27) (V c main_v28) (V c main_v2) (V c main_v29) (((cfg1.win 7).blk t).view.emb (ix2 r j))
  rw [he]
  refine (mlp_pay (iblk1 V c 0 t) (iblk1 V c 1 t) (iblk1 V c 2 t) (iblk1 V c 3 t) (iblk1 V c 4 t) (iblk1 V c 5 t) (iblk1 V c 6 t) r j).trans ?_
  show mlpRow _ _ _ _ _ _ _ j = mlpRow (fun q => (V c main_arg0 : S200000x128.Idx → EReal) (ix2 R q)) (fun q => (V c main_v25 : S200000x128.Idx → EReal) (ix2 R q))
    (fun q k => (V c main_v26 : S128x128.Idx → EReal) (ix2 q k)) (fun q k => (V c main_v27 : S128x128.Idx → EReal) (ix2 q k))
    (fun k => (V c main_v28 : S1x128.Idx → EReal) (ix2 0 k)) (fun k j => (V c main_v2 : S128x128.Idx → EReal) (ix2 k j))
    (fun j => (V c main_v29 : S1x128.Idx → EReal) (ix2 0 j)) j
  have h0 : (fun q => (iblk1 V c 0 t : Vec Ideal S4000x128 .f32) (ix2 r q)) = fun q => (V c main_arg0 : S200000x128.Idx → EReal) (ix2 R q) :=
    funext fun q => iblk1_0_apply V c t r q R rfl
  have h1 : (fun q => (iblk1 V c 1 t : Vec Ideal S4000x128 .f32) (ix2 r q)) = fun q => (V c main_v25 : S200000x128.Idx → EReal) (ix2 R q) :=
    funext fun q => iblk1_1_apply V c t r q R rfl
  have h2 : (fun q k => (iblk1 V c 2 t : Vec Ideal S128x128 .f32) (ix2 q k)) = fun q k => (V c main_v26 : S128x128.Idx → EReal) (ix2 q k) :=
    funext fun q => funext fun k => iblk1_2_apply V c t q k
  have h3 : (fun q k => (iblk1 V c 3 t : Vec Ideal S128x128 .f32) (ix2 q k)) = fun q k => (V c main_v27 : S128x128.Idx → EReal) (ix2 q k) :=
    funext fun q => funext fun k => iblk1_3_apply V c t q k
  have h4 : (fun k => (iblk1 V c 4 t : Vec Ideal S1x128 .f32) (ix2 0 k)) = fun k => (V c main_v28 : S1x128.Idx → EReal) (ix2 0 k) :=
    funext fun k => iblk1_4_apply V c t k
  have h5 : (fun k j => (iblk1 V c 5 t : Vec Ideal S128x128 .f32) (ix2 k j)) = fun k j => (V c main_v2 : S128x128.Idx → EReal) (ix2 k j) :=
    funext fun k => funext fun j => iblk1_5_apply V c t k j
  have h6 : (fun j => (iblk1 V c 6 t : Vec Ideal S1x128 .f32) (ix2 0 j)) = fun j => (V c main_v29 : S1x128.Idx → EReal) (ix2 0 j) :=
    funext fun j => iblk1_6_apply V c t j
  rw [h0, h1, h2, h3, h4, h5, h6]

/-- An index of the result array is in point t's block iff each coordinate is in the block's range on its axis. -/
theorem mem_blk_mlp (t : Fin cfg1.N) (i : S200000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v30).slice (win1_7.rect t)).set ↔ _
  rw [View.set_slice_whole, Rect.mem_set_unit]
  exact Iff.rfl

/-- Every index of the result array is in some point's block: row i₀ is in block i₀ / 4000. -/
theorem cover_mlp (i : S200000x128.Idx) :
    ∃ t : Fin cfg1.N, (cfg1.win 7).flush t = true ∧ i ∈ ((cfg1.win 7).blk t).view.set := by
  have hi0 : (i 0).val < 200000 := (i 0).isLt
  have hi1 : (i 1).val < 128 := (i 1).isLt
  have hN : cfg1.N = 50 := N_1
  let t : Fin cfg1.N := ⟨(i 0).val / 4000, by rw [hN]; omega⟩
  obtain ⟨-, -, -, -, -, -, -, -, -, -, -, -, -, -, e6, e7⟩ := idx_mlp t
  have ht : t.val = (i 0).val / 4000 := rfl
  refine ⟨t, flush1_7 t, ?_⟩
  rw [mem_blk_mlp]
  intro a
  match a with
  | ⟨0, _⟩ => show win1_7.index t 0 * 4000 ≤ (i 0).val ∧ (i 0).val < win1_7.index t 0 * 4000 + 4000; rw [e6, ht]; omega
  | ⟨1, _⟩ => show win1_7.index t 1 * 128 ≤ (i 1).val ∧ (i 1).val < win1_7.index t 1 * 128 + 128; rw [e7]; omega

/-- THE RESULT ARRAY after the region: `mlpG` of the arrays the region was entered with. -/
theorem mlp_array (c : Dev nD) :
    (dat1 V c).arrAt 7 cfg1.N
      = mlpG (V c main_arg0) (V c main_v25) (V c main_v26) (V c main_v27) (V c main_v28) (V c main_v2) (V c main_v29) :=
  (dat1 V c).arrAt_eq_of_cover 7 _ (fun t _ => flushed_mlp V c t) cover_mlp

end Cert.KernelIdeal.Regions

end
-- ==== Proof.GruPayload.lean ====
/-
  The GRU stage's stored block, entry by entry.

  Entry (r, j) of the block is the gated recurrent unit's update of row r of the state by row r of the input. The two
  affine maps gi = x · Wi + bi and gh = h · Wh + bh are [2000,384] arrays; entry (r, c) of each is a sum over the 128
  contracted positions plus the bias row's entry c. The three gates' pre-activations are the column blocks [0,128),
  [128,256), [256,384) of gi and gh: entry (r, j) of block g is entry (r, 128·g + j) of the array. The rest is
  entrywise: r = σ(gi_r + gh_r), z = σ(gi_z + gh_z), n = tanh (gi_n + r · gh_n), result (1 − z) · n + z · h.
-/
import proofs.«101154_j90022514524502_1_alg».proof.Proof.Gen.KernelIdeal.Skeleton
import proofs.«101154_j90022514524502_1_alg».proof.Proof.Spec
import Idealize.ShloMosaic.Lib.ValueIdx
import Idealize.ShloMosaic.Lib.Pipeline.Value
import Idealize.ShloMosaic.PureOps.Ideal.Laws

noncomputable section
namespace Cert.KernelIdeal.Pay
open Idealize.ShloMosaic Idealize.ShloMosaic.TcCoe Cert.KernelIdeal Cert.KernelIdeal.Gen Cert.Spec
open Idealize.ShloMosaic.ValueIdx

/-! ## The [2000,128] × [128,384] product read at an index -/

/-- The left operand's index keeps the result's row … -/
theorem lhs_gru_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
/-- … and takes the contraction index as its column. -/
theorem lhs_gru_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- The right operand's index takes the contraction index as its row … -/
theorem rhs_gru_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- … and keeps the result's column. -/
theorem rhs_gru_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The product into the zero accumulator, at row `r` and column `c`: the sum over the 128 contracted positions. -/
theorem gru_matmul_apply (a : FVec Ideal S2000x128 .bf16) (b : FVec Ideal S128x384 .bf16) (r : Fin 2000) (c : Fin 384) :
    matmul (F := Ideal) dot_S2000x128_S128x384_S2000x384_1_0_0_1_n_n none a b (constant (F := Ideal) S2000x384 .f32 0x00000000#32) (ix2 r c)
      = ∑ q : Fin 128, a (ix2 r q) * b (ix2 q c) := by
  show FloatOps.matmul dot_S2000x128_S128x384_S2000x384_1_0_0_1_n_n none a b (constant (F := Ideal) S2000x384 .f32 0x00000000#32) (ix2 r c) = _
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 r c) ((ValueIdx.contrEquiv1 dot_S2000x128_S128x384_S2000x384_1_0_0_1_n_n 128 rfl rfl).symm k) = ix2 r k := funext fun a => Fin.ext (by
    match a with
    | ⟨0, _⟩ => exact lhs_gru_0 _ _
    | ⟨1, _⟩ => exact (lhs_gru_1 _ _).trans hk)
  have er : dot_S2000x128_S128x384_S2000x384_1_0_0_1_n_n.rhsIdx (ix2 r c) ((ValueIdx.contrEquiv1 dot_S2000x128_S128x384_S2000x384_1_0_0_1_n_n 128 rfl rfl).symm k) = ix2 k c := funext fun a => Fin.ext (by
    match a with
    | ⟨0, _⟩ => exact (rhs_gru_0 _ _).trans hk
    | ⟨1, _⟩ => exact rhs_gru_1 _ _)
  rw [el, er]

/-- The bias row broadcast down the 2000 rows: entry (r, c) is the row's entry c. -/
theorem bias_gru_apply (b : FVec Ideal S1x384 .f32) (r : Fin 2000) (c : Fin 384) :
    broadcastTo S2000x384 b broadcasts_S1x384_S2000x384 (ix2 r c) = b (ix2 0 c) :=
  broadcastTo_apply b broadcasts_S1x384_S2000x384 (ix2 r c) (ix2 0 c) (fun a => match a with
    | ⟨0, _⟩ => by show ((0 : Fin 1) : Nat) = if (1 : Nat) = 1 then 0 else _; rw [if_pos rfl]; rfl
    | ⟨1, _⟩ => by show (c : Nat) = if (384 : Nat) = 1 then 0 else (c : Nat); rw [if_neg (by decide)])

/-! ## The three column blocks of a [2000,384] array -/

/-- Columns [0,128): entry (r, j) of the block is entry (r, j) of the array. -/
theorem gru_slice0_apply (v : FVec Ideal S2000x384 .f32) (r : Fin 2000) (j : Fin 128) :
    extractStridedSlice S2000x128 ![0, 0] v slices_S2000x384_o0_0_S2000x128 (ix2 r j) = v (ix2 r (gateCol 0 j)) :=
  extractStridedSlice_apply ![0, 0] v slices_S2000x384_o0_0_S2000x128 (ix2 r j) (ix2 r (gateCol 0 j)) (fun a => match a with
    | ⟨0, _⟩ => by show (r : Nat) = 0 + (r : Nat); omega
    | ⟨1, _⟩ => by show 0 * 128 + (j : Nat) = 0 + (j : Nat); omega)
/-- Columns [128,256): entry (r, j) of the block is entry (r, 128 + j) of the array. -/
theorem gru_slice1_apply (v : FVec Ideal S2000x384 .f32) (r : Fin 2000) (j : Fin 128) :
    extractStridedSlice S2000x128 ![0, 128] v slices_S2000x384_o0_128_S2000x128 (ix2 r j) = v (ix2 r (gateCol 1 j)) :=
  extractStridedSlice_apply ![0, 128] v slices_S2000x384_o0_128_S2000x128 (ix2 r j) (ix2 r (gateCol 1 j)) (fun a => match a with
    | ⟨0, _⟩ => by show (r : Nat) = 0 + (r : Nat); omega
    | ⟨1, _⟩ => by show 1 * 128 + (j : Nat) = 128 + (j : Nat); omega)
/-- Columns [256,384): entry (r, j) of the block is entry (r, 256 + j) of the array. -/
theorem gru_slice2_apply (v : FVec Ideal S2000x384 .f32) (r : Fin 2000) (j : Fin 128) :
    extractStridedSlice S2000x128 ![0, 256] v slices_S2000x384_o0_256_S2000x128 (ix2 r j) = v (ix2 r (gateCol 2 j)) :=
  extractStridedSlice_apply ![0, 256] v slices_S2000x384_o0_256_S2000x128 (ix2 r j) (ix2 r (gateCol 2 j)) (fun a => match a with
    | ⟨0, _⟩ => by show (r : Nat) = 0 + (r : Nat); omega
    | ⟨1, _⟩ => by show 2 * 128 + (j : Nat) = 256 + (j : Nat); omega)

/-! ## The two nonlinearities, entry by entry -/

theorem logistic_gru_apply (v : FVec Ideal S2000x128 .f32) (i : S2000x128.Idx) :
    logistic (F := Ideal) v i = Ideal.logistic (v i) := rfl
theorem tanh_gru_apply (v : FVec Ideal S2000x128 .f32) (i : S2000x128.Idx) :
    tanh (F := Ideal) v i = Ideal.tanh (v i) := rfl

/-- Entry (r, j) of the stored block is the GRU update of row r at column j. -/
theorem gru_pay (x0 x1 : Vec Ideal S2000x128 .f32) (x2 x3 : Vec Ideal S128x384 .f32) (x4 x5 : Vec Ideal S1x384 .f32)
    (r : Fin 2000) (j : Fin 128) :
    k2_pay1 (F := Ideal) x0 x1 x2 x3 x4 x5 (ix2 r j)
      = gruRow (fun q => x0 (ix2 r q)) (fun q => x1 (ix2 r q)) (fun q col => x2 (ix2 q col)) (fun q col => x3 (ix2 q col))
          (fun col => x4 (ix2 0 col)) (fun col => x5 (ix2 0 col)) j := by
  unfold k2_pay1 gruRow gateRow
  simp only [shapeCast_self]
  simp only [addf_apply, mulf_apply, subf_apply, broadcast_apply, logistic_gru_apply, tanh_gru_apply, gru_slice0_apply, gru_slice1_apply, gru_slice2_apply, gru_matmul_apply, bias_gru_apply, truncf_apply]
  rfl

end Cert.KernelIdeal.Pay
end
-- ==== Proof.RegionGru.lean ====
/-
  The recurrent-unit region's result ARRAY, whatever the buffers hold when the region is entered.

  The grid has 50 points; point t reads rows 2000·t … 2000·t + 1999 of the two activation arrays (the scatter-added
  effect and the object state), the whole of the two [128,384] weight arrays and the two [1,384] bias rows, and writes
  back rows 2000·t … of the result. A stored entry depends on its own row of the two activation blocks only
  (`gru_pay`), so block t of the result is block t of ONE whole-array function `gruG`, and the 50 blocks tile the
  100000 rows.
-/
import proofs.«101154_j90022514524502_1_alg».proof.Proof.Gen.KernelIdeal.Frame
import proofs.«101154_j90022514524502_1_alg».proof.Proof.GruPayload
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Pay Cert.Spec
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The whole result as a function of the six arrays the region reads: row i₀ of the two activation arrays through `gruRow`. -/
abbrev gruG (T H : S100000x128.Idx → EReal) (Wi Wh : S128x384.Idx → EReal) (bi bh : S1x384.Idx → EReal) : S100000x128.Idx → EReal :=
  fun i => gruRow (fun q => T (ix2 (i 0) q)) (fun q => H (ix2 (i 0) q)) (fun q col => Wi (ix2 q col)) (fun q col => Wh (ix2 q col))
    (fun col => bi (ix2 0 col)) (fun col => bh (ix2 0 col)) (i 1)

/-- The printed index maps over the grid: the two activation windows and the result window move down one block per
    point, the weight and bias windows stay at block (0, 0). -/
theorem idx_gru : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The effect block at point t is rows 2000·t … of the array. -/
theorem iblk2_0_apply (c : Dev nD) (t : Fin cfg2.N) (r : Fin 2000) (k : Fin 128) (R : Fin 100000) (hR : R.val = t.val * 2000 + r.val) :
    (iblk2 V c 0 t : Vec Ideal S2000x128 .f32) (ix2 r k) = (V c main_v40 : S100000x128.Idx → EReal) (ix2 R k) := by
  obtain ⟨e0, e1, -⟩ := idx_gru t
  unfold iblk2
  rw [View.read_apply]
  show V c main_v40 _ = V c main_v40 _
  refine congrArg (V c main_v40) ?_
  funext a
  apply Fin.ext
  match a with
  | ⟨0, _⟩ => show win2_0.index t 0 * 2000 + 1 * r.val = R.val; rw [e0, hR]; omega
  | ⟨1, _⟩ => show win2_0.index t 1 * 128 + 1 * k.val = k.val; rw [e1]; omega

/-- The state block at point t is rows 2000·t … of the array. -/
theorem iblk2_1_apply (c : Dev nD) (t : Fin cfg2.N) (r : Fin 2000) (k : Fin 128) (R : Fin 100000) (hR : R.val = t.val * 2000 + r.val) :
    (iblk2 V c 1 t : Vec Ideal S2000x128 .f32) (ix2 r k) = (V c main_arg1 : S100000x128.Idx → EReal) (ix2 R k) := by
  obtain ⟨-, -, e0, e1, -⟩ := idx_gru t
  unfold iblk2
  rw [View.read_apply]
  show V c main_arg1 _ = V c main_arg1 _
  refine congrArg (V c main_arg1) ?_
  funext a
  apply Fin.ext
  match a with
  | ⟨0, _⟩ => show win2_1.index t 0 * 2000 + 1 * r.val = R.val; rw [e0, hR]; omega
  | ⟨1, _⟩ => show win2_1.index t 1 * 128 + 1 * k.val = k.val; rw [e1]; omega

/-- The input-side weight block is the whole array. -/
theorem iblk2_2_apply (c : Dev nD) (t : Fin cfg2.N) (q : Fin 128) (col : Fin 384) :
    (iblk2 V c 2 t : Vec Ideal S128x384 .f32) (ix2 q col) = (V c main_v3 : S128x384.Idx → EReal) (ix2 q col) := by
  obtain ⟨-, -, -, -, e0, e1, -⟩ := idx_gru t
  unfold iblk2
  rw [View.read_apply]
  show V c main_v3 _ = V c main_v3 _
  refine congrArg (V c main_v3) ?_
  funext a
  apply Fin.ext
  match a with
  | ⟨0, _⟩ => show win2_2.index t 0 * 128 + 1 * q.val = q.val; rw [e0]; omega
  | ⟨1, _⟩ => show win2_2.index t 1 * 384 + 1 * col.val = col.val; rw [e1]; omega

/-- The state-side weight block is the whole array. -/
theorem iblk2_3_apply (c : Dev nD) (t : Fin cfg2.N) (q : Fin 128) (col : Fin 384) :
    (iblk2 V c 3 t : Vec Ideal S128x384 .f32) (ix2 q col) = (V c main_v4 : S128x384.Idx → EReal) (ix2 q col) := by
  obtain ⟨-, -, -, -, -, -, e0, e1, -⟩ := idx_gru t
  unfold iblk2
  rw [View.read_apply]
  show V c main_v4 _ = V c main_v4 _
  refine congrArg (V c main_v4) ?_
  funext a
  apply Fin.ext
  match a with
  | ⟨0, _⟩ => show win2_3.index t 0 * 128 + 1 * q.val = q.val; rw [e0]; omega
  | ⟨1, _⟩ => show win2_3.index t 1 * 384 + 1 * col.val = col.val; rw [e1]; omega

/-- The input-side bias block is the whole bias row. -/
theorem iblk2_4_apply (c : Dev nD) (t : Fin cfg2.N) (col : Fin 384) :
    (iblk2 V c 4 t : Vec Ideal S1x384 .f32) (ix2 0 col) = (V c main_v41 : S1x384.Idx → EReal) (ix2 0 col) := by
  obtain ⟨-, -, -, -, -, -, -, -, e0, e1, -⟩ := idx_gru t
  unfold iblk2
  rw [View.read_apply]
  show V c main_v41 _ = V c main_v41 _
  refine congrArg (V c main_v41) ?_
  funext a
  apply Fin.ext
  match a with
  | ⟨0, _⟩ => show win2_4.index t 0 * 1 + 1 * 0 = 0; rw [e0]
  | ⟨1, _⟩ => show win2_4.index t 1 * 384 + 1 * col.val = col.val; rw [e1]; omega

/-- The state-side bias block is the whole bias row. -/
theorem iblk2_5_apply (c : Dev nD) (t : Fin cfg2.N) (col : Fin 384) :
    (iblk2 V c 5 t : Vec Ideal S1x384 .f32) (ix2 0 col) = (V c main_v42 : S1x384.Idx → EReal) (ix2 0 col) := by
  obtain ⟨-, -, -, -, -, -, -, -, -, -, e0, e1, -⟩ := idx_gru t
  unfold iblk2
  rw [View.read_apply]
  show V c main_v42 _ = V c main_v42 _
  refine congrArg (V c main_v42) ?_
  funext a
  apply Fin.ext
  match a with
  | ⟨0, _⟩ => show win2_5.index t 0 * 1 + 1 * 0 = 0; rw [e0]
  | ⟨1, _⟩ => show win2_5.index t 1 * 384 + 1 * col.val = col.val; rw [e1]; omega

/-- WHAT POINT t WRITES BACK is block t of `gruG` of the arrays as the region finds them. -/
theorem flushed_gru (c : Dev nD) (t : Fin cfg2.N) :
    (dat2 V c).flushed 6 t
      = ((cfg2.win 6).blk t).view.read (Elt Ideal)
          (gruG (V c main_v40) (V c main_arg1) (V c main_v3) (V c main_v4) (V c main_v41) (V c main_v42)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x384) hz2, View.ld_unit_zero (S := S1x384) hz2]
  funext y
  obtain ⟨r, j, rfl⟩ : ∃ (r : Fin 2000) (j : Fin 128), y = ix2 r j := ⟨y 0, y 1, eq_ix2 y⟩
  obtain ⟨-, -, -, -, -, -, -, -, -, -, -, -, e6, e7⟩ := idx_gru t
  have hN : cfg2.N = 50 := N_2
  have ht : t.val < 50 := hN ▸ t.isLt
  have hr : r.val < 2000 := r.isLt
  let R : Fin 100000 := ⟨t.val * 2000 + r.val, by omega⟩
  have he : ((cfg2.win 6).blk t).view.emb (ix2 r j) = (ix2 R j : S100000x128.Idx) := by
    funext a
    apply Fin.ext
    match a with
    | ⟨0, _⟩ => show win2_6.index t 0 * 2000 + 1 * r.val = t.val * 2000 + r.val; rw [e6]; omega
    | ⟨1, _⟩ => show win2_6.index t 1 * 128 + 1 * j.val = j.val; rw [e7]; omega
  show k2_pay1 (F := Ideal) (iblk2 V c 0 t) (iblk2 V c 1 t) (iblk2 V c 2 t) (iblk2 V c 3 t) (iblk2 V c 4 t) (iblk2 V c 5 t) (ix2 r j)
      = gruG (V c main_v40) (V c main_arg1) (V c main_v3) (V c main_v4) (V c main_v41) (V c main_v42) (((cfg2.win 6).blk t).view.emb (ix2 r j))
  rw [he]
  refine (gru_pay (iblk2 V c 0 t) (iblk2 V c 1 t) (iblk2 V c 2 t) (iblk2 V c 3 t) (iblk2 V c 4 t) (iblk2 V c 5 t) r j).trans ?_
  show gruRow _ _ _ _ _ _ j = gruRow (fun q => (V c main_v40 : S100000x128.Idx → EReal) (ix2 R q)) (fun q => (V c main_arg1 : S100000x128.Idx → EReal) (ix2 R q))
    (fun q col => (V c main_v3 : S128x384.Idx → EReal) (ix2 q col)) (fun q col => (V c main_v4 : S128x384.Idx → EReal) (ix2 q col))
    (fun col => (V c main_v41 : S1x384.Idx → EReal) (ix2 0 col)) (fun col => (V c main_v42 : S1x384.Idx → EReal) (ix2 0 col)) j
  have h0 : (fun q => (iblk2 V c 0 t : Vec Ideal S2000x128 .f32) (ix2 r q)) = fun q => (V c main_v40 : S100000x128.Idx → EReal) (ix2 R q) :=
    funext fun q => iblk2_0_apply V c t r q R rfl
  have h1 : (fun q => (iblk2 V c 1 t : Vec Ideal S2000x128 .f32) (ix2 r q)) = fun q => (V c main_arg1 : S100000x128.Idx → EReal) (ix2 R q) :=
    funext fun q => iblk2_1_apply V c t r q R rfl
  have h2 : (fun q col => (iblk2 V c 2 t : Vec Ideal S128x384 .f32) (ix2 q col)) = fun q col => (V c main_v3 : S128x384.Idx → EReal) (ix2 q col) :=
    funext fun q => funext fun col => iblk2_2_apply V c t q col
  have h3 : (fun q col => (iblk2 V c 3 t : Vec Ideal S128x384 .f32) (ix2 q col)) = fun q col => (V c main_v4 : S128x384.Idx → EReal) (ix2 q col) :=
    funext fun q => funext fun col => iblk2_3_apply V c t q col
  have h4 : (fun col => (iblk2 V c 4 t : Vec Ideal S1x384 .f32) (ix2 0 col)) = fun col => (V c main_v41 : S1x384.Idx → EReal) (ix2 0 col) :=
    funext fun col => iblk2_4_apply V c t col
  have h5 : (fun col => (iblk2 V c 5 t : Vec Ideal S1x384 .f32) (ix2 0 col)) = fun col => (V c main_v42 : S1x384.Idx → EReal) (ix2 0 col) :=
    funext fun col => iblk2_5_apply V c t col
  rw [h0, h1, h2, h3, h4, h5]

/-- An index of the result array is in point t's block iff each coordinate is in the block's range on its axis. -/
theorem mem_blk_gru (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v43).slice (win2_6.rect t)).set ↔ _
  rw [View.set_slice_whole, Rect.mem_set_unit]
  exact Iff.rfl

/-- Every index of the result array is in some point's block: row i₀ is in block i₀ / 2000. -/
theorem cover_gru (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, -, -, -, -, -, -, e6, e7⟩ := idx_gru t
  have ht : t.val = (i 0).val / 2000 := rfl
  refine ⟨t, flush2_6 t, ?_⟩
  rw [mem_blk_gru]
  intro a
  match a with
  | ⟨0, _⟩ => show win2_6.index t 0 * 2000 ≤ (i 0).val ∧ (i 0).val < win2_6.index t 0 * 2000 + 2000; rw [e6, ht]; omega
  | ⟨1, _⟩ => show win2_6.index t 1 * 128 ≤ (i 1).val ∧ (i 1).val < win2_6.index t 1 * 128 + 128; rw [e7]; omega

/-- THE RESULT ARRAY after the region: `gruG` of the arrays the region was entered with. -/
theorem gru_array (c : Dev nD) :
    (dat2 V c).arrAt 6 cfg2.N
      = gruG (V c main_v40) (V c main_arg1) (V c main_v3) (V c main_v4) (V c main_v41) (V c main_v42) :=
  (dat2 V c).arrAt_eq_of_cover 6 _ (fun t _ => flushed_gru V c t) cover_gru

end Cert.KernelIdeal.Regions

end
-- ==== Proof.KernelValue.lean ====
/-
  What the kernel program's buffers hold at each boundary of its run, as functions of the fourteen argument arrays.

  The program is: five weight transposes and a bias reshape; the projection region; a host stretch (gather the
  projected states by object index, scatter-add them by event index, divide by the clamped edge counts: the
  scatter-mean context; slice and reshape the perceptron's weights and biases); the perceptron region; a host
  stretch (gather the impulses by event index, scatter-add them by object index: the total effect; reshape the two
  gate biases); the recurrent-unit region. Each region's result array is its whole-array function of the arrays it
  was entered with (the three region modules), each host stretch's results are read off its fold, and a buffer no
  later item writes keeps its contents. Reading everything back to the launch memory gives the two results as
  `kMlp` and `kGru` of the arguments: the row functions of the specification, the two gather/scatter chains carried
  as opaque functions `ctxOf` and `effOf` of the array they gather from and the two index arrays.
-/
import proofs.«101154_j90022514524502_1_alg».proof.Proof.RegionProj
import proofs.«101154_j90022514524502_1_alg».proof.Proof.RegionMlp
import proofs.«101154_j90022514524502_1_alg».proof.Proof.RegionGru
import Idealize.ShloMosaic.Lib.StableHlo.Run
import Idealize.ShloMosaic.Lib.Pipeline.Value
import Idealize.ShloMosaic.Lib.ValueIdx

set_option maxRecDepth 16384

noncomputable section

namespace Cert.KernelIdeal.Contents

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Regions Cert.Spec
open Idealize.ShloMosaic.ValueIdx

/-! ## The two gather / scatter chains, as functions of what they gather from -/

/-- A possibly negative index wrapped once into range `[0, n)`: `i < 0 ? i + n : i`, elementwise. -/
abbrev wrapIdx (n : BitVec 32) (x : (⟨S1000000, .i32⟩ : BufTy).Contents (Elt Ideal)) : (⟨S1000000, .i32⟩ : BufTy).Contents (Elt Ideal) :=
  select (cmpi .slt x (broadcastInDim S1000000 ![] bcast_S_S1000000 (constantI S_ 32 0#32)))
    (addi x (broadcastInDim S1000000 ![] bcast_S_S1000000 (constantI S_ 32 n))) x

/-- The scatter-mean context of every event: the rows of `P` gathered by object index, scatter-added by event index,
    divided by the number of edges of the event clamped below at one. -/
def ctxOf (P : (⟨S100000x128, .f32⟩ : BufTy).Contents (Elt Ideal)) (ev ob : (⟨S1000000, .i32⟩ : BufTy).Contents (Elt Ideal)) :
    (⟨S200000x128, .f32⟩ : BufTy).Contents (Elt Ideal) :=
  Host.divf (F := Ideal)
    (Host.scatterAdd (F := Ideal) scatter_S200000x128_S1000000x1_S1000000x128_1_0_0_1
      (broadcastInDim S200000x128 ![] bcast_S_S200000x128 (constant (F := Ideal) S_ .f32 0x00000000#32))
      (broadcastInDim S1000000x1 ![0] bcast_S1000000_S1000000x1_0 ev)
      (Host.gather gather_S100000x128_S1000000x1_S1000000x128_1_0_n_n_0_1_1128 P
        (broadcastInDim S1000000x1 ![0] bcast_S1000000_S1000000x1_0 (wrapIdx 100000#32 ob))))
    (broadcastInDim S200000x128 ![0, 1] bcast_S200000x1_S200000x128_0_1
      (broadcastInDim S200000x1 ![0] bcast_S200000_S200000x1_0
        (maximumf (F := Ideal)
          (Host.scatterAdd (F := Ideal) scatter_S200000_S1000000x1_S1000000_n_0_0_1
            (broadcastInDim S200000 ![] bcast_S_S200000 (constant (F := Ideal) S_ .f32 0x00000000#32))
            (broadcastInDim S1000000x1 ![0] bcast_S1000000_S1000000x1_0 ev)
            (broadcastInDim S1000000 ![] bcast_S_S1000000 (constant (F := Ideal) S_ .f32 0x3F800000#32)))
          (broadcastInDim S200000 ![] bcast_S_S200000 (constant (F := Ideal) S_ .f32 0x3F800000#32)))))

/-- The total effect on every object: the rows of `H` gathered by event index, scatter-added by object index. -/
def effOf (H : (⟨S200000x128, .f32⟩ : BufTy).Contents (Elt Ideal)) (ev ob : (⟨S1000000, .i32⟩ : BufTy).Contents (Elt Ideal)) :
    (⟨S100000x128, .f32⟩ : BufTy).Contents (Elt Ideal) :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 ob)
    (Host.gather gather_S200000x128_S1000000x1_S1000000x128_1_0_n_n_0_1_1128 H
      (broadcastInDim S1000000x1 ![0] bcast_S1000000_S1000000x1_0 (wrapIdx 200000#32 ev)))

/-! ## The two results as functions of the arguments -/

/-- The projected object states. -/
def kProj (x1 : (⟨S100000x128, .f32⟩ : BufTy).Contents (Elt Ideal)) (x4 : (⟨S128x128, .f32⟩ : BufTy).Contents (Elt Ideal))
    (x5 : (⟨S128, .f32⟩ : BufTy).Contents (Elt Ideal)) : (⟨S100000x128, .f32⟩ : BufTy).Contents (Elt Ideal) :=
  fun i => projRow (fun k => x1 (ix2 (i 0) k)) (fun k j => x4 (ix2 j k)) (fun j => x5 (ix1 j)) (i 1)

/-- The impulse of every event (the second result). -/
def kMlp (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) : (⟨S200000x128, .f32⟩ : BufTy).Contents (Elt Ideal) :=
  fun i => mlpRow (fun q => x0 (ix2 (i 0) q)) (fun q => ctxOf (kProj x1 x4 x5) x2 x3 (ix2 (i 0) q))
    (fun q k => x6 (ix2 k (⟨q.val, by have := q.isLt; omega⟩ : Fin 256)))
    (fun q k => x6 (ix2 k (⟨128 + q.val, by have := q.isLt; omega⟩ : Fin 256)))
    (fun k => x7 (ix1 k)) (fun k j => x8 (ix2 j k)) (fun j => x9 (ix1 j)) (i 1)

/-- The new state of every object (the first result). -/
def kGru (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 x11 : (⟨S384x128, .f32⟩ : BufTy).Contents (Elt Ideal))
    (x12 x13 : (⟨S384, .f32⟩ : BufTy).Contents (Elt Ideal)) : (⟨S100000x128, .f32⟩ : BufTy).Contents (Elt Ideal) :=
  fun i => gruRow (fun q => effOf (kMlp x0 x1 x2 x3 x4 x5 x6 x7 x8 x9) x2 x3 (ix2 (i 0) q)) (fun q => x1 (ix2 (i 0) q))
    (fun q col => x10 (ix2 col q)) (fun q col => x11 (ix2 col q)) (fun col => x12 (ix1 col)) (fun col => x13 (ix1 col)) (i 1)

variable (m : (ℓ : Loc nD τ sig) → Buf (Elt Ideal) ℓ) (ρ : Dev nD → PrngReg)

/-! ## Entering the projection region: the arrays after the first host stretch -/

theorem v1_arg1 (c : Dev nD) : V1 m ρ c main_arg1 = m ((c : Thread nD τ).loc main_arg1) := by
  show StableHlo.after hostOps0 (W0 m ρ c) (Proc.devRef .tc main_arg1) = _
  after_results <;> rfl

theorem v1_v0 (c : Dev nD) :
    V1 m ρ c main_v0 = transpose S128x128 [1, 0] (m ((c : Thread nD τ).loc main_arg4)) transposes_S128x128_S128x128_1_0 := by
  show StableHlo.after hostOps0 (W0 m ρ c) (Proc.devRef .tc main_v0) = _
  after_results <;> rfl

theorem v1_v5 (c : Dev nD) :
    V1 m ρ c main_v5 = fun i => shapeCast S1x128 (m ((c : Thread nD τ).loc main_arg5)) shapeCasts_S128_S1x128 i := by
  show StableHlo.after hostOps0 (W0 m ρ c) (Proc.devRef .tc main_v5) = _
  after_results <;> rfl

/-- A [n] row reshaped to [1,n], at (0, j): the row's entry j. -/
theorem reshape_row_apply {n : Nat} (x : (⟨1, ![n]⟩ : Shape).Idx → EReal) (h : (⟨1, ![n]⟩ : Shape).ShapeCasts ⟨2, ![1, n]⟩) (j : Fin n) :
    shapeCast (⟨2, ![1, n]⟩ : Shape) x h (ix2 0 j) = x (ix1 j) := by
  refine (shapeCast_addUnit_apply ![n] x h (ix2 0 j)).trans (congrArg x ?_)
  funext a
  match a with
  | ⟨0, _⟩ => rfl

/-- The transposed projection weights at (k, j): the weight array at (j, k). -/
theorem v1_v0_at (c : Dev nD) (k j : Fin 128) :
    (V1 m ρ c main_v0 : S128x128.Idx → EReal) (ix2 k j) = (m ((c : Thread nD τ).loc main_arg4) : S128x128.Idx → EReal) (ix2 j k) := by
  rw [v1_v0]
  exact transpose_apply [1, 0] _ transposes_S128x128_S128x128_1_0 (ix2 k j) (ix2 j k) (fun b => match b with
    | ⟨0, _⟩ => rfl
    | ⟨1, _⟩ => rfl)

theorem v1_v5_at (c : Dev nD) (j : Fin 128) :
    (V1 m ρ c main_v5 : S1x128.Idx → EReal) (ix2 0 j) = (m ((c : Thread nD τ).loc main_arg5) : S128.Idx → EReal) (ix1 j) := by
  rw [v1_v5]
  exact reshape_row_apply _ shapeCasts_S128_S1x128 j

/-! ## Leaving the projection region -/

/-- The projected states after region 0, as a function of the arguments. -/
theorem w2_v6 (c : Dev nD) :
    W2 m ρ c (Proc.devRef .tc main_v6)
      = kProj (m ((c : Thread nD τ).loc main_arg1)) (m ((c : Thread nD τ).loc main_arg4)) (m ((c : Thread nD τ).loc main_arg5)) := by
  refine ((W2_arr m ρ c 3).trans (proj_array (V1 m ρ) c)).trans ?_
  funext i
  show projRow _ _ _ (i 1) = projRow _ _ _ (i 1)
  rw [v1_arg1]
  have h1 : (fun k j => (V1 m ρ c main_v0 : S128x128.Idx → EReal) (ix2 k j)) = fun k j => (m ((c : Thread nD τ).loc main_arg4) : S128x128.Idx → EReal) (ix2 j k) :=
    funext fun k => funext fun j => v1_v0_at m ρ c k j
  have h2 : (fun j => (V1 m ρ c main_v5 : S1x128.Idx → EReal) (ix2 0 j)) = fun j => (m ((c : Thread nD τ).loc main_arg5) : S128.Idx → EReal) (ix1 j) :=
    funext fun j => v1_v5_at m ρ c j
  rw [h1, h2]

/-! ## What the projection region leaves at the buffers it does not write -/

theorem w2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results <;> rfl
theorem w2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl
theorem w2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl
theorem w2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results <;> rfl
theorem w2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results <;> rfl
theorem w2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results <;> rfl
theorem w2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results <;> rfl
/-- The object states are an input array of the projection region: it leaves them as it found them. -/
theorem w2_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (v1_arg1 m ρ c)
theorem w2_v1 (c : Dev nD) :
    W2 m ρ c (Proc.devRef .tc main_v1) = transpose S256x128 [1, 0] (m ((c : Thread nD τ).loc main_arg6)) transposes_S128x256_S256x128_1_0 := by
  refine (W2_of_ne m ρ c main_v1 (by decide)).trans ?_
  show StableHlo.after hostOps0 (W0 m ρ c) (Proc.devRef .tc main_v1) = _
  after_results <;> rfl
theorem w2_v2 (c : Dev nD) :
    W2 m ρ c (Proc.devRef .tc main_v2) = transpose S128x128 [1, 0] (m ((c : Thread nD τ).loc main_arg8)) transposes_S128x128_S128x128_1_0 := by
  refine (W2_of_ne m ρ c main_v2 (by decide)).trans ?_
  show StableHlo.after hostOps0 (W0 m ρ c) (Proc.devRef .tc main_v2) = _
  after_results <;> rfl
theorem w2_v3 (c : Dev nD) :
    W2 m ρ c (Proc.devRef .tc main_v3) = transpose S128x384 [1, 0] (m ((c : Thread nD τ).loc main_arg10)) transposes_S384x128_S128x384_1_0 := by
  refine (W2_of_ne m ρ c main_v3 (by decide)).trans ?_
  show StableHlo.after hostOps0 (W0 m ρ c) (Proc.devRef .tc main_v3) = _
  after_results <;> rfl
theorem w2_v4 (c : Dev nD) :
    W2 m ρ c (Proc.devRef .tc main_v4) = transpose S128x384 [1, 0] (m ((c : Thread nD τ).loc main_arg11)) transposes_S384x128_S128x384_1_0 := by
  refine (W2_of_ne m ρ c main_v4 (by decide)).trans ?_
  show StableHlo.after hostOps0 (W0 m ρ c) (Proc.devRef .tc main_v4) = _
  after_results <;> rfl

/-! ## Entering the perceptron region: the arrays after the second host stretch -/

theorem v3_arg0 (c : Dev nD) : V3 m ρ c main_arg0 = m ((c : Thread nD τ).loc main_arg0) := by
  refine Eq.trans ?_ (w2_arg0 m ρ c)
  show StableHlo.after hostOps1 (W2 m ρ c) (Proc.devRef .tc main_arg0) = W2 m ρ c (Proc.devRef .tc main_arg0)
  after_results_simp

/-- The scatter-mean context the perceptron reads, as a function of the arguments. -/
theorem v3_v25 (c : Dev nD) :
    V3 m ρ c main_v25 = ctxOf (kProj (m ((c : Thread nD τ).loc main_arg1)) (m ((c : Thread nD τ).loc main_arg4)) (m ((c : Thread nD τ).loc main_arg5))) (m ((c : Thread nD τ).loc main_arg2)) (m ((c : Thread nD τ).loc main_arg3)) := by
  rw [← w2_v6 m ρ c, ← w2_arg2 m ρ c, ← w2_arg3 m ρ c]
  show StableHlo.after hostOps1 (W2 m ρ c) (Proc.devRef .tc main_v25) = _
  after_results_simp <;> rfl

theorem v3_v26 (c : Dev nD) :
    V3 m ρ c main_v26 = extractStridedSlice S128x128 ![0, 0] (W2 m ρ c (Proc.devRef .tc main_v1)) slices_S256x128_S128x128_0_0 := by
  show StableHlo.after hostOps1 (W2 m ρ c) (Proc.devRef .tc main_v26) = _
  after_results_simp <;> rfl
theorem v3_v27 (c : Dev nD) :
    V3 m ρ c main_v27 = extractStridedSlice S128x128 ![128, 0] (W2 m ρ c (Proc.devRef .tc main_v1)) slices_S256x128_S128x128_128_0 := by
  show StableHlo.after hostOps1 (W2 m ρ c) (Proc.devRef .tc main_v27) = _
  after_results_simp <;> rfl
theorem v3_v28 (c : Dev nD) :
    V3 m ρ c main_v28 = fun i => shapeCast S1x128 (W2 m ρ c (Proc.devRef .tc main_arg7)) shapeCasts_S128_S1x128 i := by
  show StableHlo.after hostOps1 (W2 m ρ c) (Proc.devRef .tc main_v28) = _
  after_results_simp <;> rfl
theorem v3_v29 (c : Dev nD) :
    V3 m ρ c main_v29 = fun i => shapeCast S1x128 (W2 m ρ c (Proc.devRef .tc main_arg9)) shapeCasts_S128_S1x128 i := by
  show StableHlo.after hostOps1 (W2 m ρ c) (Proc.devRef .tc main_v29) = _
  after_results_simp <;> rfl
theorem v3_v2 (c : Dev nD) : V3 m ρ c main_v2 = W2 m ρ c (Proc.devRef .tc main_v2) := by
  show StableHlo.after hostOps1 (W2 m ρ c) (Proc.devRef .tc main_v2) = _
  after_results_simp

/-- The event half of the first layer's weights at (q, k): the weight array at (k, q). -/
theorem v3_v26_at (c : Dev nD) (q k : Fin 128) :
    (V3 m ρ c main_v26 : S128x128.Idx → EReal) (ix2 q k)
      = (m ((c : Thread nD τ).loc main_arg6) : S128x256.Idx → EReal) (ix2 k (⟨q.val, by have := q.isLt; omega⟩ : Fin 256)) := by
  rw [v3_v26, w2_v1]
  refine (extractStridedSlice_apply ![0, 0] _ slices_S256x128_S128x128_0_0 (ix2 q k)
    (ix2 (⟨q.val, by have := q.isLt; omega⟩ : Fin 256) k) (fun a => match a with
      | ⟨0, _⟩ => by show q.val = 0 + q.val; omega
      | ⟨1, _⟩ => by show k.val = 0 + k.val; omega)).trans ?_
  exact transpose_apply [1, 0] _ transposes_S128x256_S256x128_1_0 (ix2 (⟨q.val, by have := q.isLt; omega⟩ : Fin 256) k)
    (ix2 k (⟨q.val, by have := q.isLt; omega⟩ : Fin 256)) (fun b => match b with
      | ⟨0, _⟩ => rfl
      | ⟨1, _⟩ => rfl)

/-- The context half of the first layer's weights at (q, k): the weight array at (k, 128 + q). -/
theorem v3_v27_at (c : Dev nD) (q k : Fin 128) :
    (V3 m ρ c main_v27 : S128x128.Idx → EReal) (ix2 q k)
      = (m ((c : Thread nD τ).loc main_arg6) : S128x256.Idx → EReal) (ix2 k (⟨128 + q.val, by have := q.isLt; omega⟩ : Fin 256)) := by
  rw [v3_v27, w2_v1]
  refine (extractStridedSlice_apply ![128, 0] _ slices_S256x128_S128x128_128_0 (ix2 q k)
    (ix2 (⟨128 + q.val, by have := q.isLt; omega⟩ : Fin 256) k) (fun a => match a with
      | ⟨0, _⟩ => by show 128 + q.val = 128 + q.val; rfl
      | ⟨1, _⟩ => by show k.val = 0 + k.val; omega)).trans ?_
  exact transpose_apply [1, 0] _ transposes_S128x256_S256x128_1_0 (ix2 (⟨128 + q.val, by have := q.isLt; omega⟩ : Fin 256) k)
    (ix2 k (⟨128 + q.val, by have := q.isLt; omega⟩ : Fin 256)) (fun b => match b with
      | ⟨0, _⟩ => rfl
      | ⟨1, _⟩ => rfl)

theorem v3_v28_at (c : Dev nD) (k : Fin 128) :
    (V3 m ρ c main_v28 : S1x128.Idx → EReal) (ix2 0 k) = (m ((c : Thread nD τ).loc main_arg7) : S128.Idx → EReal) (ix1 k) := by
  rw [v3_v28, w2_arg7]
  exact reshape_row_apply _ shapeCasts_S128_S1x128 k
theorem v3_v29_at (c : Dev nD) (j : Fin 128) :
    (V3 m ρ c main_v29 : S1x128.Idx → EReal) (ix2 0 j) = (m ((c : Thread nD τ).loc main_arg9) : S128.Idx → EReal) (ix1 j) := by
  rw [v3_v29, w2_arg9]
  exact reshape_row_apply _ shapeCasts_S128_S1x128 j
theorem v3_v2_at (c : Dev nD) (k j : Fin 128) :
    (V3 m ρ c main_v2 : S128x128.Idx → EReal) (ix2 k j) = (m ((c : Thread nD τ).loc main_arg8) : S128x128.Idx → EReal) (ix2 j k) := by
  rw [v3_v2, w2_v2]
  exact transpose_apply [1, 0] _ transposes_S128x128_S128x128_1_0 (ix2 k j) (ix2 j k) (fun b => match b with
    | ⟨0, _⟩ => rfl
    | ⟨1, _⟩ => rfl)

/-! ## Leaving the perceptron region -/

/-- The impulses after region 1, as a function of the arguments. -/
theorem w4_v30 (c : Dev nD) :
    W4 m ρ c (Proc.devRef .tc main_v30)
      = kMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 7).trans (mlp_array (V3 m ρ) c)).trans ?_
  funext i
  show mlpRow _ _ _ _ _ _ _ (i 1) = mlpRow _ _ _ _ _ _ _ (i 1)
  rw [v3_arg0, v3_v25]
  have h2 : (fun q k => (V3 m ρ c main_v26 : S128x128.Idx → EReal) (ix2 q k)) = fun q k => (m ((c : Thread nD τ).loc main_arg6) : S128x256.Idx → EReal) (ix2 k (⟨q.val, by have := q.isLt; omega⟩ : Fin 256)) :=
    funext fun q => funext fun k => v3_v26_at m ρ c q k
  have h3 : (fun q k => (V3 m ρ c main_v27 : S128x128.Idx → EReal) (ix2 q k)) = fun q k => (m ((c : Thread nD τ).loc main_arg6) : S128x256.Idx → EReal) (ix2 k (⟨128 + q.val, by have := q.isLt; omega⟩ : Fin 256)) :=
    funext fun q => funext fun k => v3_v27_at m ρ c q k
  have h4 : (fun k => (V3 m ρ c main_v28 : S1x128.Idx → EReal) (ix2 0 k)) = fun k => (m ((c : Thread nD τ).loc main_arg7) : S128.Idx → EReal) (ix1 k) :=
    funext fun k => v3_v28_at m ρ c k
  have h5 : (fun k j => (V3 m ρ c main_v2 : S128x128.Idx → EReal) (ix2 k j)) = fun k j => (m ((c : Thread nD τ).loc main_arg8) : S128x128.Idx → EReal) (ix2 j k) :=
    funext fun k => funext fun j => v3_v2_at m ρ c k j
  have h6 : (fun j => (V3 m ρ c main_v29 : S1x128.Idx → EReal) (ix2 0 j)) = fun j => (m ((c : Thread nD τ).loc main_arg9) : S128.Idx → EReal) (ix1 j) :=
    funext fun j => v3_v29_at m ρ c j
  rw [h2, h3, h4, h5, h6]

/-! ## What the second host stretch and the perceptron region leave at the buffers they do not write -/

theorem w4_arg1 (c : Dev nD) : W4 m ρ c (Proc.devRef .tc main_arg1) = W2 m ρ c (Proc.devRef .tc main_arg1) := by
  refine (W4_of_ne m ρ c main_arg1 (by decide)).trans ?_
  show StableHlo.after hostOps1 (W2 m ρ c) (Proc.devRef .tc main_arg1) = _
  after_results_simp
theorem w4_arg2 (c : Dev nD) : W4 m ρ c (Proc.devRef .tc main_arg2) = W2 m ρ c (Proc.devRef .tc main_arg2) := by
  refine (W4_of_ne m ρ c main_arg2 (by decide)).trans ?_
  show StableHlo.after hostOps1 (W2 m ρ c) (Proc.devRef .tc main_arg2) = _
  after_results_simp
theorem w4_arg3 (c : Dev nD) : W4 m ρ c (Proc.devRef .tc main_arg3) = W2 m ρ c (Proc.devRef .tc main_arg3) := by
  refine (W4_of_ne m ρ c main_arg3 (by decide)).trans ?_
  show StableHlo.after hostOps1 (W2 m ρ c) (Proc.devRef .tc main_arg3) = _
  after_results_simp
theorem w4_arg12 (c : Dev nD) : W4 m ρ c (Proc.devRef .tc main_arg12) = W2 m ρ c (Proc.devRef .tc main_arg12) := by
  refine (W4_of_ne m ρ c main_arg12 (by decide)).trans ?_
  show StableHlo.after hostOps1 (W2 m ρ c) (Proc.devRef .tc main_arg12) = _
  after_results_simp
theorem w4_arg13 (c : Dev nD) : W4 m ρ c (Proc.devRef .tc main_arg13) = W2 m ρ c (Proc.devRef .tc main_arg13) := by
  refine (W4_of_ne m ρ c main_arg13 (by decide)).trans ?_
  show StableHlo.after hostOps1 (W2 m ρ c) (Proc.devRef .tc main_arg13) = _
  after_results_simp
theorem w4_v3 (c : Dev nD) : W4 m ρ c (Proc.devRef .tc main_v3) = W2 m ρ c (Proc.devRef .tc main_v3) := by
  refine (W4_of_ne m ρ c main_v3 (by decide)).trans ?_
  show StableHlo.after hostOps1 (W2 m ρ c) (Proc.devRef .tc main_v3) = _
  after_results_simp
theorem w4_v4 (c : Dev nD) : W4 m ρ c (Proc.devRef .tc main_v4) = W2 m ρ c (Proc.devRef .tc main_v4) := by
  refine (W4_of_ne m ρ c main_v4 (by decide)).trans ?_
  show StableHlo.after hostOps1 (W2 m ρ c) (Proc.devRef .tc main_v4) = _
  after_results_simp

/-! ## Entering the recurrent-unit region: the arrays after the third host stretch -/

/-- The total effect the recurrent unit reads, as a function of the arguments. -/
theorem v5_v40 (c : Dev nD) :
    V5 m ρ c main_v40
      = effOf (kMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) (m ((c : Thread nD τ).loc main_arg3)) := by
  rw [← w4_v30 m ρ c, ← w2_arg2 m ρ c, ← w2_arg3 m ρ c, ← w4_arg2 m ρ c, ← w4_arg3 m ρ c]
  show StableHlo.after hostOps2 (W4 m ρ c) (Proc.devRef .tc main_v40) = _
  after_results <;> rfl

theorem v5_arg1 (c : Dev nD) : V5 m ρ c main_arg1 = m ((c : Thread nD τ).loc main_arg1) := by
  refine Eq.trans ?_ ((w4_arg1 m ρ c).trans (w2_arg1 m ρ c))
  show StableHlo.after hostOps2 (W4 m ρ c) (Proc.devRef .tc main_arg1) = W4 m ρ c (Proc.devRef .tc main_arg1)
  after_results
theorem v5_v3 (c : Dev nD) :
    V5 m ρ c main_v3 = transpose S128x384 [1, 0] (m ((c : Thread nD τ).loc main_arg10)) transposes_S384x128_S128x384_1_0 := by
  refine Eq.trans ?_ ((w4_v3 m ρ c).trans (w2_v3 m ρ c))
  show StableHlo.after hostOps2 (W4 m ρ c) (Proc.devRef .tc main_v3) = W4 m ρ c (Proc.devRef .tc main_v3)
  after_results
theorem v5_v4 (c : Dev nD) :
    V5 m ρ c main_v4 = transpose S128x384 [1, 0] (m ((c : Thread nD τ).loc main_arg11)) transposes_S384x128_S128x384_1_0 := by
  refine Eq.trans ?_ ((w4_v4 m ρ c).trans (w2_v4 m ρ c))
  show StableHlo.after hostOps2 (W4 m ρ c) (Proc.devRef .tc main_v4) = W4 m ρ c (Proc.devRef .tc main_v4)
  after_results
theorem v5_v41 (c : Dev nD) :
    V5 m ρ c main_v41 = fun i => shapeCast S1x384 (W4 m ρ c (Proc.devRef .tc main_arg12)) shapeCasts_S384_S1x384 i := by
  show StableHlo.after hostOps2 (W4 m ρ c) (Proc.devRef .tc main_v41) = _
  after_results <;> rfl
theorem v5_v42 (c : Dev nD) :
    V5 m ρ c main_v42 = fun i => shapeCast S1x384 (W4 m ρ c (Proc.devRef .tc main_arg13)) shapeCasts_S384_S1x384 i := by
  show StableHlo.after hostOps2 (W4 m ρ c) (Proc.devRef .tc main_v42) = _
  after_results <;> rfl

theorem v5_v3_at (c : Dev nD) (q : Fin 128) (col : Fin 384) :
    (V5 m ρ c main_v3 : S128x384.Idx → EReal) (ix2 q col) = (m ((c : Thread nD τ).loc main_arg10) : S384x128.Idx → EReal) (ix2 col q) := by
  rw [v5_v3]
  exact transpose_apply [1, 0] _ transposes_S384x128_S128x384_1_0 (ix2 q col) (ix2 col q) (fun b => match b with
    | ⟨0, _⟩ => rfl
    | ⟨1, _⟩ => rfl)
theorem v5_v4_at (c : Dev nD) (q : Fin 128) (col : Fin 384) :
    (V5 m ρ c main_v4 : S128x384.Idx → EReal) (ix2 q col) = (m ((c : Thread nD τ).loc main_arg11) : S384x128.Idx → EReal) (ix2 col q) := by
  rw [v5_v4]
  exact transpose_apply [1, 0] _ transposes_S384x128_S128x384_1_0 (ix2 q col) (ix2 col q) (fun b => match b with
    | ⟨0, _⟩ => rfl
    | ⟨1, _⟩ => rfl)
theorem v5_v41_at (c : Dev nD) (col : Fin 384) :
    (V5 m ρ c main_v41 : S1x384.Idx → EReal) (ix2 0 col) = (m ((c : Thread nD τ).loc main_arg12) : S384.Idx → EReal) (ix1 col) := by
  rw [v5_v41, w4_arg12, w2_arg12]
  exact reshape_row_apply _ shapeCasts_S384_S1x384 col
theorem v5_v42_at (c : Dev nD) (col : Fin 384) :
    (V5 m ρ c main_v42 : S1x384.Idx → EReal) (ix2 0 col) = (m ((c : Thread nD τ).loc main_arg13) : S384.Idx → EReal) (ix1 col) := by
  rw [v5_v42, w4_arg13, w2_arg13]
  exact reshape_row_apply _ shapeCasts_S384_S1x384 col

/-! ## The two results at the last boundary -/

/-- The new object states after region 2, as a function of the arguments. -/
theorem w6_v43 (c : Dev nD) :
    W6 m ρ c (Proc.devRef .tc main_v43)
      = kGru (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W6_arr m ρ c 6).trans (gru_array (V5 m ρ) c)).trans ?_
  funext i
  show gruRow _ _ _ _ _ _ (i 1) = gruRow _ _ _ _ _ _ (i 1)
  rw [v5_v40, v5_arg1]
  have h2 : (fun q col => (V5 m ρ c main_v3 : S128x384.Idx → EReal) (ix2 q col)) = fun q col => (m ((c : Thread nD τ).loc main_arg10) : S384x128.Idx → EReal) (ix2 col q) :=
    funext fun q => funext fun col => v5_v3_at m ρ c q col
  have h3 : (fun q col => (V5 m ρ c main_v4 : S128x384.Idx → EReal) (ix2 q col)) = fun q col => (m ((c : Thread nD τ).loc main_arg11) : S384x128.Idx → EReal) (ix2 col q) :=
    funext fun q => funext fun col => v5_v4_at m ρ c q col
  have h4 : (fun col => (V5 m ρ c main_v41 : S1x384.Idx → EReal) (ix2 0 col)) = fun col => (m ((c : Thread nD τ).loc main_arg12) : S384.Idx → EReal) (ix1 col) :=
    funext fun col => v5_v41_at m ρ c col
  have h5 : (fun col => (V5 m ρ c main_v42 : S1x384.Idx → EReal) (ix2 0 col)) = fun col => (m ((c : Thread nD τ).loc main_arg13) : S384.Idx → EReal) (ix1 col) :=
    funext fun col => v5_v42_at m ρ c col
  rw [h2, h3, h4, h5]

/-- The impulses are not written after region 1: the last boundary still holds them. -/
theorem w6_v30 (c : Dev nD) :
    W6 m ρ c (Proc.devRef .tc main_v30)
      = kMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_of_ne m ρ c main_v30 (by decide)).trans ?_
  refine Eq.trans ?_ (w4_v30 m ρ c)
  show StableHlo.after hostOps2 (W4 m ρ c) (Proc.devRef .tc main_v30) = W4 m ρ c (Proc.devRef .tc main_v30)
  after_results

end Cert.KernelIdeal.Contents

end
-- ==== Proof.RefMlp.lean ====
import proofs.«101154_j90022514524502_1_alg».proof.Proof.Gen.ReferenceIdeal.Read
import proofs.«101154_j90022514524502_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section
namespace Cert.ReferenceIdeal.Stages
open Idealize.ShloMosaic Idealize.ShloMosaic.TcCoe Cert.ReferenceIdeal Cert.ReferenceIdeal.Gen Cert.ReferenceIdeal.Read Cert.Spec
open Idealize.ShloMosaic.ValueIdx

/-- The reference's projection (statement 5 of @main, %4), entry by entry. -/
theorem ref_proj (x1 : (⟨S100000x128, .f32⟩ : BufTy).Contents (Elt Ideal)) (x4 : (⟨S128x128, .f32⟩ : BufTy).Contents (Elt Ideal))
    (x5 : (⟨S128, .f32⟩ : BufTy).Contents (Elt Ideal)) (r : Fin 100000) (j : Fin 128) :
    val_main_v4 (F := Ideal) x1 x4 x5 (ix2 r j)
      = projRow (fun k => x1 (ix2 r k)) (fun k j => x4 (ix2 j k)) (fun j => x5 (ix1 j)) j := by
  rw [val_main_v4_apply, val_main_v1_apply, val_main_v3_apply, val_main_v2_apply]
  simp only [val_main_v0_apply]
  have hl : ∀ k : Fin 128, lidx_main_v1 (ix2 r j) k = ix2 r k := fun k =>
    funext fun a => Fin.ext (by match a with | ⟨0, _⟩ => rfl | ⟨1, _⟩ => rfl)
  have hr : ∀ k : Fin 128, idx_main_v0 (ridx_main_v1 (ix2 r j) k) = ix2 j k := fun k =>
    funext fun a => Fin.ext (by match a with | ⟨0, _⟩ => rfl | ⟨1, _⟩ => rfl)
  have hb : idx_main_v2 (idx_main_v3 (ix2 r j)) = ix1 j :=
    funext fun a => Fin.ext (by match a with | ⟨0, _⟩ => rfl)
  rw [hb, Ideal.addf_def]
  unfold projRow
  refine congrArg (· + x5 (ix1 j)) (Finset.sum_congr rfl fun k _ => ?_)
  rw [hl, hr]

/-- The joined row %24 at a column below 128 is the first piece's entry there. -/
theorem main_v24_at_left (x0 C : (⟨S200000x128, .f32⟩ : BufTy).Contents (Elt Ideal)) (r : Fin 200000) (q : Fin 128)
    (h : q.val < 256) :
    concatenate S200000x256 1 [⟨S200000x128, x0⟩, ⟨S200000x128, C⟩]
        concatenates_S200000x128_S200000x128_S200000x256_d1 (ix2 r (⟨q.val, h⟩ : Fin 256))
      = x0 (ix2 r q) :=
  concatenate_pair_apply_left 1 x0 C concatenates_S200000x128_S200000x128_S200000x256_d1
    (ix2 r (⟨q.val, h⟩ : Fin 256)) rfl (ix2 r q) (fun b => by match b with | ⟨0, _⟩ => rfl | ⟨1, _⟩ => rfl)

/-- The joined row %24 at column 128 + q is the second piece's entry q. -/
theorem main_v24_at_right (x0 C : (⟨S200000x128, .f32⟩ : BufTy).Contents (Elt Ideal)) (r : Fin 200000) (q : Fin 128)
    (h : 128 + q.val < 256) :
    concatenate S200000x256 1 [⟨S200000x128, x0⟩, ⟨S200000x128, C⟩]
        concatenates_S200000x128_S200000x128_S200000x256_d1 (ix2 r (⟨128 + q.val, h⟩ : Fin 256))
      = C (ix2 r q) :=
  concatenate_pair_apply_right 1 x0 C concatenates_S200000x128_S200000x128_S200000x256_d1
    (ix2 r (⟨128 + q.val, h⟩ : Fin 256)) rfl rfl (ix2 r q)
    (fun b hb => by match b with | ⟨0, _⟩ => rfl | ⟨1, _⟩ => exact absurd rfl hb)
    (Nat.add_comm q.val 128)

/-- The hidden layer %30 = relu (%24 · transpose %arg6 + %arg7), entry by entry: the contraction over the 256 columns of
    the joined row [x0 row | C row] is the contraction of each half over its 128 columns, added. -/
theorem ref_hidden (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (r : Fin 200000) (k : Fin 128) :
    val_main_v30 (F := Ideal) x0 x1 x2 x3 x4 x5 x6 x7 (ix2 r k)
      = hiddenRow (fun q => x0 (ix2 r q)) (fun q => val_main_v23 (F := Ideal) x1 x2 x3 x4 x5 (ix2 r q))
          (fun q k => x6 (ix2 k (⟨q.val, by have := q.isLt; omega⟩ : Fin 256)))
          (fun q k => x6 (ix2 k (⟨128 + q.val, by have := q.isLt; omega⟩ : Fin 256)))
          (fun k => x7 (ix1 k)) k := by
  rw [val_main_v30_apply, val_main_v29_apply, val_main_v26_apply, val_main_v28_apply, val_main_v27_apply,
    val_main_call0_v0_apply, val_main_call0_cst_apply]
  have hb : idx_main_v27 (idx_main_v28 (ix2 r k)) = ix1 k :=
    funext fun a => Fin.ext (by match a with | ⟨0, _⟩ => rfl)
  have hl : ∀ c : Fin 256, lidx_main_v26 (ix2 r k) c = ix2 r c := fun c =>
    funext fun a => Fin.ext (by match a with | ⟨0, _⟩ => rfl | ⟨1, _⟩ => rfl)
  have hr : ∀ c : Fin 256, idx_main_v25 (ridx_main_v26 (ix2 r k) c) = ix2 k c := fun c =>
    funext fun a => Fin.ext (by match a with | ⟨0, _⟩ => rfl | ⟨1, _⟩ => rfl)
  rw [hb, Ideal.maximumf_def, Ideal.addf_def, Ideal.ofBits_def]
  unfold hiddenRow
  refine congrArg (fun s => max (s + x7 (ix1 k)) (Ideal.ofBits .f32 0x00000000#32)) ?_
  -- the summand, with every index written by its coordinates
  have hs : (∑ c : Fin 256, val_main_v24 (F := Ideal) x0 x1 x2 x3 x4 x5 (lidx_main_v26 (ix2 r k) c)
        * val_main_v25 (F := Ideal) x6 (ridx_main_v26 (ix2 r k) c))
      = ∑ c : Fin 256, val_main_v24 (F := Ideal) x0 x1 x2 x3 x4 x5 (ix2 r c) * x6 (ix2 k c) :=
    Finset.sum_congr rfl fun c _ => by rw [hl, val_main_v25_apply, hr]
  -- the 256 columns split at 128; each half of the joined row is one of its two pieces
  rw [hs, sum_split]
  unfold val_main_v24
  generalize val_main_v23 (F := Ideal) x1 x2 x3 x4 x5 = C
  refine congrArg₂ (· + ·) (Finset.sum_congr rfl fun q _ => ?_) (Finset.sum_congr rfl fun q _ => ?_)
  · rw [main_v24_at_left]
  · rw [main_v24_at_right]

/-- The reference's perceptron (%35) over the scatter-mean context `C` (%23), entry by entry. -/
theorem ref_mlp (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (r : Fin 200000) (j : Fin 128) :
    val_main_v35 (F := Ideal) x0 x1 x2 x3 x4 x5 x6 x7 x8 x9 (ix2 r j)
      = mlpRow (fun q => x0 (ix2 r q)) (fun q => val_main_v23 (F := Ideal) x1 x2 x3 x4 x5 (ix2 r q))
          (fun q k => x6 (ix2 k (⟨q.val, by have := q.isLt; omega⟩ : Fin 256)))
          (fun q k => x6 (ix2 k (⟨128 + q.val, by have := q.isLt; omega⟩ : Fin 256)))
          (fun k => x7 (ix1 k)) (fun k j => x8 (ix2 j k)) (fun j => x9 (ix1 j)) j := by
  rw [val_main_v35_apply, val_main_v32_apply, val_main_v34_apply, val_main_v33_apply]
  have hb : idx_main_v33 (idx_main_v34 (ix2 r j)) = ix1 j :=
    funext fun a => Fin.ext (by match a with | ⟨0, _⟩ => rfl)
  have hl : ∀ k : Fin 128, lidx_main_v32 (ix2 r j) k = ix2 r k := fun k =>
    funext fun a => Fin.ext (by match a with | ⟨0, _⟩ => rfl | ⟨1, _⟩ => rfl)
  have hr : ∀ k : Fin 128, idx_main_v31 (ridx_main_v32 (ix2 r j) k) = ix2 j k := fun k =>
    funext fun a => Fin.ext (by match a with | ⟨0, _⟩ => rfl | ⟨1, _⟩ => rfl)
  rw [hb, Ideal.addf_def]
  unfold mlpRow
  refine congrArg (· + x9 (ix1 j)) (Finset.sum_congr rfl fun k _ => ?_)
  rw [hl, val_main_v31_apply, hr, ref_hidden]

end Cert.ReferenceIdeal.Stages
end
-- ==== Proof.RefGru.lean ====
import proofs.«101154_j90022514524502_1_alg».proof.Proof.Gen.ReferenceIdeal.Read
import proofs.«101154_j90022514524502_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section
namespace Cert.ReferenceIdeal.Stages
open Idealize.ShloMosaic Idealize.ShloMosaic.TcCoe Cert.ReferenceIdeal Cert.ReferenceIdeal.Gen Cert.ReferenceIdeal.Read Cert.Spec
open Idealize.ShloMosaic.ValueIdx

/-!
  The GRU cell of the reference, entry by entry.

  The two affine maps are read at a gate column (a sum over the 128 contracted positions plus the bias), the six
  column blocks are read at the gate columns 0 · 128 + j, 1 · 128 + j and 2 · 128 + j, and the remaining operations
  are elementwise. The two sigmoids appear as 1 / (1 + exp (−x)), which is the logistic function by definition
  once the f32 word of one is read as the extended real one.
-/

/-- The input-side affine map (%50) at row `r` and gate column `col`: the row of `T` (%45) against the transposed
    weights, plus the bias broadcast down the rows. -/
theorem gi_at (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S384x128, .f32⟩ : BufTy).Contents (Elt Ideal))
    (x12 : (⟨S384, .f32⟩ : BufTy).Contents (Elt Ideal)) (r : Fin 100000) (col : Fin 384) :
    val_main_v50 (F := Ideal) x0 x1 x2 x3 x4 x5 x6 x7 x8 x9 x10 x12 (ix2 r col)
      = gateRow (fun q => val_main_v45 (F := Ideal) x0 x1 x2 x3 x4 x5 x6 x7 x8 x9 (ix2 r q)) (fun q col => x10 (ix2 col q))
          (fun col => x12 (ix1 col)) col := by
  rw [val_main_v50_apply, val_main_v47_apply, val_main_v49_apply, val_main_v48_apply]
  generalize val_main_v45 (F := Ideal) x0 x1 x2 x3 x4 x5 x6 x7 x8 x9 = T
  simp only [val_main_v46_apply]
  unfold gateRow
  rw [Ideal.addf_def]
  have e1 : ∀ k : Fin 128, lidx_main_v47 (ix2 r col) k = ix2 r k := fun k => funext fun a => by
    match a with
    | ⟨0, _⟩ => rfl
    | ⟨1, _⟩ => rfl
  have e2 : ∀ k : Fin 128, idx_main_v46 (ridx_main_v47 (ix2 r col) k) = ix2 col k := fun k => funext fun a => by
    match a with
    | ⟨0, _⟩ => rfl
    | ⟨1, _⟩ => rfl
  have e3 : idx_main_v48 (idx_main_v49 (ix2 r col)) = ix1 col := funext fun a => by
    match a with
    | ⟨0, _⟩ => rfl
  simp only [e1, e2, e3]

/-- The state-side affine map (%55) at row `r` and gate column `col`: the row of the state against the transposed
    weights, plus the bias broadcast down the rows. -/
theorem gh_at (x1 : (⟨S100000x128, .f32⟩ : BufTy).Contents (Elt Ideal)) (x11 : (⟨S384x128, .f32⟩ : BufTy).Contents (Elt Ideal))
    (x13 : (⟨S384, .f32⟩ : BufTy).Contents (Elt Ideal)) (r : Fin 100000) (col : Fin 384) :
    val_main_v55 (F := Ideal) x1 x11 x13 (ix2 r col)
      = gateRow (fun q => x1 (ix2 r q)) (fun q col => x11 (ix2 col q)) (fun col => x13 (ix1 col)) col := by
  rw [val_main_v55_apply, val_main_v52_apply, val_main_v54_apply, val_main_v53_apply]
  simp only [val_main_v51_apply]
  unfold gateRow
  rw [Ideal.addf_def]
  have e1 : ∀ k : Fin 128, lidx_main_v52 (ix2 r col) k = ix2 r k := fun k => funext fun a => by
    match a with
    | ⟨0, _⟩ => rfl
    | ⟨1, _⟩ => rfl
  have e2 : ∀ k : Fin 128, idx_main_v51 (ridx_main_v52 (ix2 r col) k) = ix2 col k := fun k => funext fun a => by
    match a with
    | ⟨0, _⟩ => rfl
    | ⟨1, _⟩ => rfl
  have e3 : idx_main_v53 (idx_main_v54 (ix2 r col)) = ix1 col := funext fun a => by
    match a with
    | ⟨0, _⟩ => rfl
  simp only [e1, e2, e3]

/-- The slice %56 reads column `j` of its block at gate column 0 · 128 + j. -/
theorem idx_v56_at (r : Fin 100000) (j : Fin 128) : idx_main_v56 (ix2 r j) = ix2 r (gateCol 0 j) := funext fun a => by
  match a with
  | ⟨0, _⟩ => rfl
  | ⟨1, _⟩ => exact Fin.ext (by show j.val = 0 * 128 + j.val; omega)

/-- The slice %57 reads column `j` of its block at gate column 1 · 128 + j. -/
theorem idx_v57_at (r : Fin 100000) (j : Fin 128) : idx_main_v57 (ix2 r j) = ix2 r (gateCol 1 j) := funext fun a => by
  match a with
  | ⟨0, _⟩ => rfl
  | ⟨1, _⟩ => exact Fin.ext (by show 128 + j.val = 1 * 128 + j.val; omega)

/-- The slice %58 reads column `j` of its block at gate column 2 · 128 + j. -/
theorem idx_v58_at (r : Fin 100000) (j : Fin 128) : idx_main_v58 (ix2 r j) = ix2 r (gateCol 2 j) := funext fun a => by
  match a with
  | ⟨0, _⟩ => rfl
  | ⟨1, _⟩ => exact Fin.ext (by show 256 + j.val = 2 * 128 + j.val; omega)

/-- The slice %59 reads column `j` of its block at gate column 0 · 128 + j. -/
theorem idx_v59_at (r : Fin 100000) (j : Fin 128) : idx_main_v59 (ix2 r j) = ix2 r (gateCol 0 j) := funext fun a => by
  match a with
  | ⟨0, _⟩ => rfl
  | ⟨1, _⟩ => exact Fin.ext (by show j.val = 0 * 128 + j.val; omega)

/-- The slice %60 reads column `j` of its block at gate column 1 · 128 + j. -/
theorem idx_v60_at (r : Fin 100000) (j : Fin 128) : idx_main_v60 (ix2 r j) = ix2 r (gateCol 1 j) := funext fun a => by
  match a with
  | ⟨0, _⟩ => rfl
  | ⟨1, _⟩ => exact Fin.ext (by show 128 + j.val = 1 * 128 + j.val; omega)

/-- The slice %61 reads column `j` of its block at gate column 2 · 128 + j. -/
theorem idx_v61_at (r : Fin 100000) (j : Fin 128) : idx_main_v61 (ix2 r j) = ix2 r (gateCol 2 j) := funext fun a => by
  match a with
  | ⟨0, _⟩ => rfl
  | ⟨1, _⟩ => exact Fin.ext (by show 256 + j.val = 2 * 128 + j.val; omega)

/-- The reference's GRU cell (%83) over the scatter-added effect `T` (%45), entry by entry. -/
theorem ref_gru (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 x11 : (⟨S384x128, .f32⟩ : BufTy).Contents (Elt Ideal))
    (x12 x13 : (⟨S384, .f32⟩ : BufTy).Contents (Elt Ideal)) (r : Fin 100000) (j : Fin 128) :
    val_main_v83 (F := Ideal) x0 x1 x2 x3 x4 x5 x6 x7 x8 x9 x10 x11 x12 x13 (ix2 r j)
      = gruRow (fun q => val_main_v45 (F := Ideal) x0 x1 x2 x3 x4 x5 x6 x7 x8 x9 (ix2 r q)) (fun q => x1 (ix2 r q))
          (fun q col => x10 (ix2 col q)) (fun q col => x11 (ix2 col q)) (fun col => x12 (ix1 col)) (fun col => x13 (ix1 col)) j := by
  rw [val_main_v83_apply, val_main_v82_apply, val_main_v81_apply, val_main_v80_apply, val_main_v79_apply, val_main_cst_11_apply,
    val_main_v78_apply, val_main_v77_apply, val_main_v76_apply, val_main_v75_apply, val_main_v74_apply, val_main_cst_10_apply,
    val_main_v73_apply, val_main_v72_apply, val_main_cst_9_apply, val_main_v71_apply, val_main_v70_apply, val_main_v69_apply,
    val_main_v68_apply, val_main_v67_apply, val_main_cst_8_apply, val_main_v66_apply, val_main_v65_apply, val_main_cst_7_apply,
    val_main_v64_apply, val_main_v63_apply, val_main_v62_apply, val_main_v61_apply, val_main_v60_apply, val_main_v59_apply,
    val_main_v58_apply, val_main_v57_apply, val_main_v56_apply,
    idx_v56_at, idx_v57_at, idx_v58_at, idx_v59_at, idx_v60_at, idx_v61_at, gi_at, gi_at, gi_at, gh_at, gh_at, gh_at]
  generalize (fun q => val_main_v45 (F := Ideal) x0 x1 x2 x3 x4 x5 x6 x7 x8 x9 (ix2 r q)) = T
  unfold gruRow
  simp only [Ideal.addf_def, Ideal.mulf_def, Ideal.subf_def, Ideal.hostDivf_def, Ideal.hostNegf_def, Ideal.negf_def,
    Ideal.hostUnary_exp_def, Ideal.hostUnary_tanh_def, Ideal.ofBits_def, Ideal.logistic, Ideal.ofBits_one_f32]

end Cert.ReferenceIdeal.Stages
end
-- ==== Proof.Bridge.lean ====
/-
  The reference's stages are the kernel program's functions of the arguments.

  Stage by stage: the reference's projection is `kProj` (both are `projRow` of the object-state row); its
  scatter-mean context is the SAME chain of gather, scatter-add, count, clamp and divide applied to that projection
  (`ctxOf`: the two programs print it operation for operation alike); its perceptron over the concatenated row is
  `kMlp` (the 256-term first-layer sum split at 128); its total effect is the same gather / scatter-add chain applied
  to the impulses (`effOf`); its recurrent cell, with the two sigmoids spelt 1 / (1 + exp(−x)), is `kGru`.
-/
import proofs.«101154_j90022514524502_1_alg».proof.Proof.KernelValue
import proofs.«101154_j90022514524502_1_alg».proof.Proof.RefMlp
import proofs.«101154_j90022514524502_1_alg».proof.Proof.RefGru

noncomputable section

namespace Cert.Bridge

open Idealize.ShloMosaic Idealize.ShloMosaic.TcCoe
open Cert.ReferenceIdeal Cert.ReferenceIdeal.Read Cert.ReferenceIdeal.Stages
open Cert.KernelIdeal.Contents (kProj kMlp kGru ctxOf effOf)
open Idealize.ShloMosaic.ValueIdx

/-- The reference's projected states are `kProj` of the same arguments. -/
theorem proj_eq (x1 : (⟨S100000x128, .f32⟩ : BufTy).Contents (Elt Ideal)) (x4 : (⟨S128x128, .f32⟩ : BufTy).Contents (Elt Ideal)) (x5 : (⟨S128, .f32⟩ : BufTy).Contents (Elt Ideal)) :
    val_main_v4 (F := Ideal) x1 x4 x5 = kProj x1 x4 x5 := by
  funext i
  obtain ⟨r, j, rfl⟩ : ∃ (r : Fin 100000) (j : Fin 128), i = ix2 r j := ⟨i 0, i 1, eq_ix2 i⟩
  exact ref_proj x1 x4 x5 r j

/-- The reference's scatter-mean context is the shared chain applied to the projected states. -/
theorem ctx_eq (x1 : (⟨S100000x128, .f32⟩ : BufTy).Contents (Elt Ideal)) (x2 x3 : (⟨S1000000, .i32⟩ : BufTy).Contents (Elt Ideal)) (x4 : (⟨S128x128, .f32⟩ : BufTy).Contents (Elt Ideal)) (x5 : (⟨S128, .f32⟩ : BufTy).Contents (Elt Ideal)) :
    val_main_v23 (F := Ideal) x1 x2 x3 x4 x5 = ctxOf (kProj x1 x4 x5) x2 x3 := by
  rw [← proj_eq]
  rfl

/-- The reference's impulses are `kMlp` of the same arguments. -/
theorem mlp_eq (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v35 (F := Ideal) x0 x1 x2 x3 x4 x5 x6 x7 x8 x9 = kMlp x0 x1 x2 x3 x4 x5 x6 x7 x8 x9 := by
  funext i
  obtain ⟨r, j, rfl⟩ : ∃ (r : Fin 200000) (j : Fin 128), i = ix2 r j := ⟨i 0, i 1, eq_ix2 i⟩
  refine (ref_mlp x0 x1 x2 x3 x4 x5 x6 x7 x8 x9 r j).trans ?_
  rw [ctx_eq]
  rfl

/-- The reference's total effect is the shared chain applied to the impulses. -/
theorem eff_eq (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v45 (F := Ideal) x0 x1 x2 x3 x4 x5 x6 x7 x8 x9 = effOf (kMlp x0 x1 x2 x3 x4 x5 x6 x7 x8 x9) x2 x3 := by
  rw [← mlp_eq]
  rfl

/-- The reference's new object states are `kGru` of the same arguments. -/
theorem gru_eq (x0 : (⟨S200000x128, .f32⟩ : BufTy).Contents (Elt Ideal)) (x1 : (⟨S100000x128, .f32⟩ : BufTy).Contents (Elt Ideal))
    (x2 x3 : (⟨S1000000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 x11 : (⟨S384x128, .f32⟩ : BufTy).Contents (Elt Ideal))
    (x12 x13 : (⟨S384, .f32⟩ : BufTy).Contents (Elt Ideal)) :
    val_main_v83 (F := Ideal) x0 x1 x2 x3 x4 x5 x6 x7 x8 x9 x10 x11 x12 x13 = kGru x0 x1 x2 x3 x4 x5 x6 x7 x8 x9 x10 x11 x12 x13 := by
  funext i
  obtain ⟨r, j, rfl⟩ : ∃ (r : Fin 100000) (j : Fin 128), i = ix2 r j := ⟨i 0, i 1, eq_ix2 i⟩
  refine (ref_gru x0 x1 x2 x3 x4 x5 x6 x7 x8 x9 x10 x11 x12 x13 r j).trans ?_
  rw [eff_eq]
  rfl

end Cert.Bridge

end
-- ==== Proof.lean ====
/-
  An object-state updater of a hypergraph network, tiled in three dense kernels, against its plain array reference:
  equal results over the extended reals.

  The network: project every object's state (x ↦ x · Waᵀ + ba); gather the projections along the edges and average them
  into each event (scatter-add, divide by the clamped edge count); run a two-layer perceptron on each event's features
  concatenated with that context; gather the impulses along the edges and add them into each object; update each
  object's state by a gated recurrent cell. The kernel program computes the three dense stages in row tiles (5000, 4000
  and 2000 rows a point), rounding matmul operands to bf16 — the identity on the extended reals — and feeding the
  perceptron's two input halves through two 128-wide products instead of one 256-wide product of the concatenation;
  the gather / scatter steps between the stages are the same host operations in both programs.

  Why the two agree, index by index: every dense stage acts row by row, so a tile's rows are the whole array's rows
  (`projRow`, `mlpRow`, `gruRow` of Proof/Spec.lean, the tiles covering the arrays: Proof/Region*.lean); a matmul into a
  zero accumulator and the host's dot_general are the same finite sum; the 256-term sum splits at 128 because addition of
  extended reals is commutative and associative (no finiteness is used anywhere); the kernel's logistic is by definition
  1 / (1 + exp(−x)), which is how the reference spells its sigmoids. The kernel program's two results are read off the
  fold of its buffer contents through the regions and host stretches (Proof/KernelRun.lean, Proof/KernelValue.lean), the
  reference's off its run (Proof/RefMlp.lean, Proof/RefGru.lean), and Proof/Bridge.lean states both as the same
  functions `kGru`, `kMlp` of the fourteen arguments.

  The three frames: the two kernel programs' are the run of their segments with every argument array read back to its
  launch contents; the reference's is its run with the results dropped. The idealization rewrote nothing, so there is
  nothing to preserve.
-/
import proofs.«101154_j90022514524502_1_alg».proof.Defs
import proofs.«101154_j90022514524502_1_alg».proof.Proof.Gen.Kernel
import proofs.«101154_j90022514524502_1_alg».proof.Proof.Gen.Kernel.Skeleton
import proofs.«101154_j90022514524502_1_alg».proof.Proof.Gen.Kernel.Launch
import proofs.«101154_j90022514524502_1_alg».proof.Proof.Gen.Kernel.Points
import proofs.«101154_j90022514524502_1_alg».proof.Proof.Gen.Kernel.Frame
import proofs.«101154_j90022514524502_1_alg».proof.Proof.Gen.KernelIdeal
import proofs.«101154_j90022514524502_1_alg».proof.Proof.Gen.KernelIdeal.Skeleton
import proofs.«101154_j90022514524502_1_alg».proof.Proof.Gen.KernelIdeal.Launch
import proofs.«101154_j90022514524502_1_alg».proof.Proof.Gen.KernelIdeal.Points
import proofs.«101154_j90022514524502_1_alg».proof.Proof.Gen.KernelIdeal.Frame
import proofs.«101154_j90022514524502_1_alg».proof.Proof.Gen.ReferenceIdeal
import proofs.«101154_j90022514524502_1_alg».proof.Proof.Gen.ReferenceIdeal.Run
import proofs.«101154_j90022514524502_1_alg».proof.Proof.Gen.ReferenceIdeal.Read
import proofs.«101154_j90022514524502_1_alg».proof.Proof.Gen.Pre_finite_inputs
import proofs.«101154_j90022514524502_1_alg».proof.Proof.KernelRun
import proofs.«101154_j90022514524502_1_alg».proof.Proof.KernelValue
import proofs.«101154_j90022514524502_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- The kernel program's run with its two results at `kGru`, `kMlp` of its arguments. -/
theorem kernel_results (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v43) = Cert.KernelIdeal.Contents.kGru (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v30) = Cert.KernelIdeal.Contents.kMlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
      ⟨(h c).1.trans (Cert.KernelIdeal.Contents.w6_v43 m ρ c), (h c).2.1.trans (Cert.KernelIdeal.Contents.w6_v30 m ρ c), (h c).2.2⟩)
    (Cert.KernelIdeal.Run.run_named (F := Ideal) m ρ)

/-- The reference's run with its two results at `kGru`, `kMlp` of its arguments. -/
theorem reference_results (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v83) = Cert.KernelIdeal.Contents.kGru (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v35) = Cert.KernelIdeal.Contents.kMlp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono (fun r h c =>
      ⟨(h c).1.trans ((Cert.ReferenceIdeal.Read.val_main_v83_eq m' c).trans (Cert.Bridge.gru_eq _ _ _ _ _ _ _ _ _ _ _ _ _ _)),
       (h c).2.1.trans ((Cert.ReferenceIdeal.Read.val_main_v35_eq _ _ _ _ _ _ _ _ _ _).trans (Cert.Bridge.mlp_eq _ _ _ _ _ _ _ _ _ _)),
       (h c).2.2⟩)
    (Cert.ReferenceIdeal.Value.run (F := Ideal) m' ρ')

/-- Both programs end with the new object states at `kGru` and the impulses at `kMlp` of the (agreeing) arguments. -/
theorem algebraic : Cert.algebraic_KernelIdeal_ReferenceIdeal := by
  intro m ρ m' ρ' _ hagree
  refine ⟨fun c => Cert.KernelIdeal.Contents.kGru (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Contents.kMlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), kernel_results m ρ, ?_⟩
  refine (θ_run Cert.ReferenceIdeal.defs _ _).mono (fun r h c => ?_) (reference_results m' ρ')
  obtain ⟨e0, e1, e2, e3, e4, e5, e6, e7, e8, e9, e10, e11, e12, e13⟩ := hagree c
  refine ⟨(h c).1.trans ?_, (h c).2.1.trans ?_, (h c).2.2⟩
  · simp only [e0, e1, e2, e3, e4, e5, e6, e7, e8, e9, e10, e11, e12, e13]
  · simp only [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
